-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8000x4 : Shape := ⟨3, ![64, 8000, 4]⟩
abbrev S64x8000 : Shape := ⟨2, ![64, 8000]⟩
abbrev S_ : Shape := ⟨0, ![]⟩

class Facts : Prop where
  bcast_S_S64x8000x4 : S_.BroadcastsInDim S64x8000x4 (![] : Fin 0 → Fin S64x8000x4.rank)
  reducesTo_S64x8000x4_S_d0_1_2 : S64x8000x4.ReducesTo [0, 1, 2] S_
  h_S_ : 0 < S_.numel
  bcast_S_S64x8000 : S_.BroadcastsInDim S64x8000 (![] : Fin 0 → Fin S64x8000.rank)
  reducesTo_S64x8000_S_d0_1 : S64x8000.ReducesTo [0, 1] S_

variable [Facts]

def fn {F : FTy → Type} [FloatOps F] (main_arg0 : FVec F S64x8000x4 .f32) (main_arg1 : FVec F S64x8000x4 .f32) (main_arg2 : FVec F S64x8000 .f32) : IVec S_ 1 :=
  let main_v0 : FVec F S64x8000x4 .f32 := Host.absf main_arg0
  let main_cst : FVec F S_ .f32 := constant S_ .f32 0x7F800000#32
  let main_v1 : FVec F S64x8000x4 .f32 := broadcastInDim S64x8000x4 ![] bcast_S_S64x8000x4 main_cst
  let main_v2 : IVec S64x8000x4 1 := cmpf .olt main_v0 main_v1
  let main_c : IVec S_ 1 := constantI S_ 1 1#1
  let main_v3 : IVec S_ 1 := (fun x v => Host.reduce IntOp.andi x v reducesTo_S64x8000x4_S_d0_1_2 h_S_) main_v2 main_c
  let main_v4 : FVec F S64x8000x4 .f32 := Host.absf main_arg1
  let main_cst_0 : FVec F S_ .f32 := constant S_ .f32 0x7F800000#32
  let main_v5 : FVec F S64x8000x4 .f32 := broadcastInDim S64x8000x4 ![] bcast_S_S64x8000x4 main_cst_0
  let main_v6 : IVec S64x8000x4 1 := cmpf .olt main_v4 main_v5
  let main_c_1 : IVec S_ 1 := constantI S_ 1 1#1
  let main_v7 : IVec S_ 1 := (fun x v => Host.reduce IntOp.andi x v reducesTo_S64x8000x4_S_d0_1_2 h_S_) main_v6 main_c_1
  let main_v8 : IVec S_ 1 := andi main_v3 main_v7
  let main_v9 : FVec F S64x8000 .f32 := Host.absf main_arg2
  let main_cst_2 : FVec F S_ .f32 := constant S_ .f32 0x7F800000#32
  let main_v10 : FVec F S64x8000 .f32 := broadcastInDim S64x8000 ![] bcast_S_S64x8000 main_cst_2
  let main_v11 : IVec S64x8000 1 := cmpf .olt main_v9 main_v10
  let main_c_3 : IVec S_ 1 := constantI S_ 1 1#1
  let main_v12 : IVec S_ 1 := (fun x v => Host.reduce IntOp.andi x v reducesTo_S64x8000_S_d0_1 h_S_) main_v11 main_c_3
  let main_v13 : IVec S_ 1 := andi main_v8 main_v12
  main_v13
-- ==== Kernel.lean ====
abbrev S64x8000x4 : Shape := ⟨3, ![64, 8000, 4]⟩
abbrev S64x8000 : Shape := ⟨2, ![64, 8000]⟩
abbrev S24x4 : Shape := ⟨2, ![24, 4]⟩
abbrev S64x8000x1 : Shape := ⟨3, ![64, 8000, 1]⟩
abbrev S64x4x4 : Shape := ⟨3, ![64, 4, 4]⟩
abbrev S8x8000x4 : Shape := ⟨3, ![8, 8000, 4]⟩
abbrev S8x8000x1 : Shape := ⟨3, ![8, 8000, 1]⟩
abbrev S8x4x4 : Shape := ⟨3, ![8, 4, 4]⟩
abbrev S8x8000 : Shape := ⟨2, ![8, 8000]⟩
abbrev S8 : Shape := ⟨1, ![8]⟩
abbrev S8x1 : Shape := ⟨2, ![8, 1]⟩
abbrev S8x4 : Shape := ⟨2, ![8, 4]⟩
abbrev S8x1x4 : Shape := ⟨3, ![8, 1, 4]⟩
abbrev S4 : Shape := ⟨1, ![4]⟩
abbrev S1x4 : Shape := ⟨2, ![1, 4]⟩
abbrev S_ : Shape := ⟨0, ![]⟩
abbrev S24x4x1 : Shape := ⟨3, ![24, 4, 1]⟩
abbrev S24x4x2 : Shape := ⟨3, ![24, 4, 2]⟩
abbrev S64x24x4 : Shape := ⟨3, ![64, 24, 4]⟩
abbrev S64x24 : Shape := ⟨2, ![64, 24]⟩
abbrev S64 : Shape := ⟨1, ![64]⟩

abbrev nBuf : Space → Nat
  | .hbm => 38
  | .vmem => 8
  | .smem => 0
  | _ => 0

abbrev bufTy : (tb : Table) → Fin (tcTables nBuf tb) → BufTy
  | .hbm, ⟨0, _⟩ => ⟨S64x8000x4, .f32⟩
  | .hbm, ⟨1, _⟩ => ⟨S64x8000x4, .f32⟩
  | .hbm, ⟨2, _⟩ => ⟨S64x8000, .f32⟩
  | .hbm, ⟨3, _⟩ => ⟨S24x4, .i32⟩
  | .hbm, ⟨4, _⟩ => ⟨S64x8000x1, .f32⟩
  | .hbm, ⟨5, _⟩ => ⟨S64x4x4, .f32⟩
  | .hbm, ⟨6, _⟩ => ⟨S4, .i32⟩
  | .hbm, ⟨7, _⟩ => ⟨S1x4, .i32⟩
  | .hbm, ⟨8, _⟩ => ⟨S_, .i32⟩
  | .hbm, ⟨9, _⟩ => ⟨S1x4, .i32⟩
  | .hbm, ⟨10, _⟩ => ⟨S1x4, .i1⟩
  | .hbm, ⟨11, _⟩ => ⟨S_, .i32⟩
  | .hbm, ⟨12, _⟩ => ⟨S1x4, .i32⟩
  | .hbm, ⟨13, _⟩ => ⟨S1x4, .i32⟩
  | .hbm, ⟨14, _⟩ => ⟨S1x4, .i32⟩
  | .hbm, ⟨15, _⟩ => ⟨S_, .i32⟩
  | .hbm, ⟨16, _⟩ => ⟨S24x4, .i32⟩
  | .hbm, ⟨17, _⟩ => ⟨S24x4, .i1⟩
  | .hbm, ⟨18, _⟩ => ⟨S_, .i32⟩
  | .hbm, ⟨19, _⟩ => ⟨S24x4, .i32⟩
  | .hbm, ⟨20, _⟩ => ⟨S24x4, .i32⟩
  | .hbm, ⟨21, _⟩ => ⟨S24x4, .i32⟩
  | .hbm, ⟨22, _⟩ => ⟨S24x4, .i32⟩
  | .hbm, ⟨23, _⟩ => ⟨S24x4x1, .i32⟩
  | .hbm, ⟨24, _⟩ => ⟨S24x4x1, .i32⟩
  | .hbm, ⟨25, _⟩ => ⟨S24x4x2, .i32⟩
  | .hbm, ⟨26, _⟩ => ⟨S64x24x4, .f32⟩
  | .hbm, ⟨27, _⟩ => ⟨S_, .f32⟩
  | .hbm, ⟨28, _⟩ => ⟨S64x24, .f32⟩
  | .hbm, ⟨29, _⟩ => ⟨S_, .f32⟩
  | .hbm, ⟨30, _⟩ => ⟨S64x24, .f32⟩
  | .hbm, ⟨31, _⟩ => ⟨S64x24, .f32⟩
  | .hbm, ⟨32, _⟩ => ⟨S_, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S8x8000x4, .f32⟩
  | .local _ .vmem, ⟨1, _⟩ => ⟨S8x8000x4, .f32⟩
  | .local _ .vmem, ⟨2, _⟩ => ⟨S8x8000x4, .f32⟩
  | .local _ .vmem, ⟨3, _⟩ => ⟨S8x8000x4, .f32⟩
  | .local _ .vmem, ⟨4, _⟩ => ⟨S8x8000x1, .f32⟩
  | .local _ .vmem, ⟨5, _⟩ => ⟨S8x8000x1, .f32⟩
  | .local _ .vmem, ⟨6, _⟩ => ⟨S8x4x4, .f32⟩
  | .local _ .vmem, ⟨7, _⟩ => ⟨S8x4x4, .f32⟩
  | _, _ => ⟨S64x8000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64x8000_S64x8000x1_0_1 : S64x8000.BroadcastsInDim S64x8000x1 (![0, 1] : Fin 2 → Fin S64x8000x1.rank)
  inb_S8x8000x4_S8x8000x4_0_0_0 : ∀ a, (![0, 0, 0] : Fin 3 → Nat) a + S8x8000x4.size a ≤ S8x8000x4.size a
  h_S8x8000x4 : 0 < S8x8000x4.numel
  inb_S8x8000x1_S8x8000x1_0_0_0 : ∀ a, (![0, 0, 0] : Fin 3 → Nat) a + S8x8000x1.size a ≤ S8x8000x1.size a
  h_S8x8000x1 : 0 < S8x8000x1.numel
  shapeCasts_S8x8000x1_S8x8000x1 : S8x8000x1.ShapeCasts S8x8000x1
  shapeCasts_S8x8000x1_S8x8000 : S8x8000x1.ShapeCasts S8x8000
  reduces_S8x8000_S8 : S8x8000.Reduces [1] S8
  slices_S8x8000x4_o0_0_0_S8x8000x1 : S8x8000x4.Slices ![0, 0, 0] S8x8000x1
  slices_S8x8000x4_o0_0_1_S8x8000x1 : S8x8000x4.Slices ![0, 0, 1] S8x8000x1
  slices_S8x8000x4_o0_0_2_S8x8000x1 : S8x8000x4.Slices ![0, 0, 2] S8x8000x1
  slices_S8x8000x4_o0_0_3_S8x8000x1 : S8x8000x4.Slices ![0, 0, 3] S8x8000x1
  shapeCasts_S8_S8x1 : S8.ShapeCasts S8x1
  concatenates_S8x1_S8x1_S8x1_S8x1_S8x4_d1 : Shape.Concatenates [S8x1, S8x1, S8x1, S8x1] S8x4 1
  broadcasts_S8x1_S8x4 : S8x1.Broadcasts S8x4
  inb_S8x4x4_S8x1x4_0_0_0 : ∀ a, (![0, 0, 0] : Fin 3 → Nat) a + S8x1x4.size a ≤ S8x4x4.size a
  h_S8x1x4 : 0 < S8x1x4.numel
  shapeCasts_S8x1x4_S8x4 : S8x1x4.ShapeCasts S8x4
  shapeCasts_S8x4_S8x1x4 : S8x4.ShapeCasts S8x1x4
  inb_S8x4x4_S8x1x4_0_1_0 : ∀ a, (![0, 1, 0] : Fin 3 → Nat) a + S8x1x4.size a ≤ S8x4x4.size a
  inb_S8x4x4_S8x1x4_0_2_0 : ∀ a, (![0, 2, 0] : Fin 3 → Nat) a + S8x1x4.size a ≤ S8x4x4.size a
  inb_S8x4x4_S8x1x4_0_3_0 : ∀ a, (![0, 3, 0] : Fin 3 → Nat) a + S8x1x4.size a ≤ S8x4x4.size a
  bcast_S4_S1x4_1 : S4.BroadcastsInDim S1x4 (![1] : Fin 1 → Fin S1x4.rank)
  bcast_S_S1x4 : S_.BroadcastsInDim S1x4 (![] : Fin 0 → Fin S1x4.rank)
  bcast_S_S24x4 : S_.BroadcastsInDim S24x4 (![] : Fin 0 → Fin S24x4.rank)
  bcast_S1x4_S24x4_0_1 : S1x4.BroadcastsInDim S24x4 (![0, 1] : Fin 2 → Fin S24x4.rank)
  bcast_S24x4_S24x4x1_0_1 : S24x4.BroadcastsInDim S24x4x1 (![0, 1] : Fin 2 → Fin S24x4x1.rank)
  concatenates_S24x4x1_S24x4x1_S24x4x2_d2 : Shape.Concatenates [S24x4x1, S24x4x1] S24x4x2 2
  reducesTo_S64x24x4_S64x24_d2 : S64x24x4.ReducesTo [2] S64x24
  h_S_ : 0 < S_.numel
  bcast_S_S64x24 : S_.BroadcastsInDim S64x24 (![] : Fin 0 → Fin S64x24.rank)
  reducesTo_S64x24_S64_d1 : S64x24.ReducesTo [1] S64
  reducesTo_S64_S_d0 : S64.ReducesTo [0] S_
  gather_S64x4x4_S24x4x2_S64x24x4_0_12_n_n_12_2_6411_wf : GatherDims.WF S64x4x4 S24x4x2 S64x24x4 [0] [1, 2] [] [1, 2] [] 2 ![64, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8000x4.size a ≤ S64x8000x4.size a
  hwx0_0 : ∀ i : grid0.Coords, EltTy.bits .f32 = 32 ∨ (Rect.block (s := S64x8000x4) S8x8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8000x4.size a ≤ S64x8000x4.size a
  hwx0_1 : ∀ i : grid0.Coords, EltTy.bits .f32 = 32 ∨ (Rect.block (s := S64x8000x4) S8x8000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8000x1.size a ≤ S64x8000x1.size a
  hwx0_2 : ∀ i : grid0.Coords, EltTy.bits .f32 = 32 ∨ (Rect.block (s := S64x8000x1) S8x8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4x4.size a ≤ S64x4x4.size a
  hwx0_3 : ∀ i : grid0.Coords, EltTy.bits .f32 = 32 ∨ (Rect.block (s := S64x4x4) S8x4x4.size (cc0_transform_3 i) (hinb0_3 i)).WholeWords (EltTy.packing .f32)

variable [Facts₀]

def gather_S64x4x4_S24x4x2_S64x24x4_0_12_n_n_12_2_6411 : GatherDims S64x4x4 S24x4x2 S64x24x4 where
  offsetDims := [0]
  collapsedSliceDims := [1, 2]
  operandBatchingDims := []
  startIndicesBatchingDims := []
  startIndexMap := [1, 2]
  indexVectorDim := 2
  sliceSizes := ![64, 1, 1]
  wf := gather_S64x4x4_S24x4x2_S64x24x4_0_12_n_n_12_2_6411_wf

abbrev win0_0 : Pipeline.Window sig grid0 :=
  Pipeline.Window.ofSpec (Memref.whole main_arg0) S8x8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x4x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x8000x4 : Shape := ⟨3, ![64, 8000, 4]⟩
abbrev S64x8000 : Shape := ⟨2, ![64, 8000]⟩
abbrev S24x4 : Shape := ⟨2, ![24, 4]⟩
abbrev S64x8000x4x1 : Shape := ⟨4, ![64, 8000, 4, 1]⟩
abbrev S64x8000x1x4 : Shape := ⟨4, ![64, 8000, 1, 4]⟩
abbrev S_ : Shape := ⟨0, ![]⟩
abbrev S64x8000x4x4 : Shape := ⟨4, ![64, 8000, 4, 4]⟩
abbrev S64x8000x1x1 : Shape := ⟨4, ![64, 8000, 1, 1]⟩
abbrev S64x4x4 : Shape := ⟨3, ![64, 4, 4]⟩
abbrev S64 : Shape := ⟨1, ![64]⟩
abbrev S64x1x1 : Shape := ⟨3, ![64, 1, 1]⟩
abbrev S4 : Shape := ⟨1, ![4]⟩
abbrev S1x4 : Shape := ⟨2, ![1, 4]⟩
abbrev S24x4x1 : Shape := ⟨3, ![24, 4, 1]⟩
abbrev S24x4x2 : Shape := ⟨3, ![24, 4, 2]⟩
abbrev S64x24x4 : Shape := ⟨3, ![64, 24, 4]⟩
abbrev S64x24 : Shape := ⟨2, ![64, 24]⟩

abbrev nBuf : Space → Nat
  | .hbm => 99
  | .vmem => 0
  | .smem => 0
  | _ => 0

abbrev bufTy : (tb : Table) → Fin (tcTables nBuf tb) → BufTy
  | .hbm, ⟨0, _⟩ => ⟨S64x8000x4, .f32⟩
  | .hbm, ⟨1, _⟩ => ⟨S64x8000x4, .f32⟩
  | .hbm, ⟨2, _⟩ => ⟨S64x8000, .f32⟩
  | .hbm, ⟨3, _⟩ => ⟨S24x4, .i32⟩
  | .hbm, ⟨4, _⟩ => ⟨S64x8000x4x1, .f32⟩
  | .hbm, ⟨5, _⟩ => ⟨S64x8000x1x4, .f32⟩
  | .hbm, ⟨6, _⟩ => ⟨S_, .f32⟩
  | .hbm, ⟨7, _⟩ => ⟨S64x8000x1x4, .f32⟩
  | .hbm, ⟨8, _⟩ => ⟨S64x8000x1x4, .f32⟩
  | .hbm, ⟨9, _⟩ => ⟨S64x8000x4x1, .f32⟩
  | .hbm, ⟨10, _⟩ => ⟨S_, .f32⟩
  | .hbm, ⟨11, _⟩ => ⟨S64x8000x4x1, .f32⟩
  | .hbm, ⟨12, _⟩ => ⟨S64x8000x4x1, .f32⟩
  | .hbm, ⟨13, _⟩ => ⟨S64x8000x4x1, .f32⟩
  | .hbm, ⟨14, _⟩ => ⟨S64x8000x4x1, .f32⟩
  | .hbm, ⟨15, _⟩ => ⟨S64x8000x4x1, .i1⟩
  | .hbm, ⟨16, _⟩ => ⟨S64x8000x4x1, .f32⟩
  | .hbm, ⟨17, _⟩ => ⟨S64x8000x4x1, .f32⟩
  | .hbm, ⟨18, _⟩ => ⟨S64x8000x4x1, .f32⟩
  | .hbm, ⟨19, _⟩ => ⟨S64x8000x4x1, .f32⟩
  | .hbm, ⟨20, _⟩ => ⟨S64x8000x4x1, .f32⟩
  | .hbm, ⟨21, _⟩ => ⟨S64x8000x4x1, .f32⟩
  | .hbm, ⟨22, _⟩ => ⟨S64x8000x4x1, .f32⟩
  | .hbm, ⟨23, _⟩ => ⟨S64x8000x4x1, .f32⟩
  | .hbm, ⟨24, _⟩ => ⟨S64x8000x4x1, .f32⟩
  | .hbm, ⟨25, _⟩ => ⟨S64x8000x4x4, .f32⟩
  | .hbm, ⟨26, _⟩ => ⟨S64x8000x4x4, .f32⟩
  | .hbm, ⟨27, _⟩ => ⟨S64x8000x4x4, .f32⟩
  | .hbm, ⟨28, _⟩ => ⟨S_, .f32⟩
  | .hbm, ⟨29, _⟩ => ⟨S64x8000x1x4, .f32⟩
  | .hbm, ⟨30, _⟩ => ⟨S64x8000x1x4, .f32⟩
  | .hbm, ⟨31, _⟩ => ⟨S64x8000x4x1, .f32⟩
  | .hbm, ⟨32, _⟩ => ⟨S64x8000x4x1, .f32⟩
  | .hbm, ⟨33, _⟩ => ⟨S_, .f32⟩
  | .hbm, ⟨34, _⟩ => ⟨S64x8000x4x1, .f32⟩
  | .hbm, ⟨35, _⟩ => ⟨S64x8000x4x1, .f32⟩
  | .hbm, ⟨36, _⟩ => ⟨S64x8000x4x1, .f32⟩
  | .hbm, ⟨37, _⟩ => ⟨S64x8000x4x1, .f32⟩
  | .hbm, ⟨38, _⟩ => ⟨S64x8000x4x1, .i1⟩
  | .hbm, ⟨39, _⟩ => ⟨S64x8000x4x1, .f32⟩
  | .hbm, ⟨40, _⟩ => ⟨S64x8000x4x1, .f32⟩
  | .hbm, ⟨41, _⟩ => ⟨S64x8000x4x1, .f32⟩
  | .hbm, ⟨42, _⟩ => ⟨S64x8000x4x1, .f32⟩
  | .hbm, ⟨43, _⟩ => ⟨S64x8000x4x1, .f32⟩
  | .hbm, ⟨44, _⟩ => ⟨S64x8000x4x1, .f32⟩
  | .hbm, ⟨45, _⟩ => ⟨S64x8000x4x1, .f32⟩
  | .hbm, ⟨46, _⟩ => ⟨S64x8000x4x1, .f32⟩
  | .hbm, ⟨47, _⟩ => ⟨S64x8000x4x1, .f32⟩
  | .hbm, ⟨48, _⟩ => ⟨S64x8000x4x4, .f32⟩
  | .hbm, ⟨49, _⟩ => ⟨S64x8000x4x4, .f32⟩
  | .hbm, ⟨50, _⟩ => ⟨S64x8000x4x4, .f32⟩
  | .hbm, ⟨51, _⟩ => ⟨S64x8000x4x4, .f32⟩
  | .hbm, ⟨52, _⟩ => ⟨S64x8000x4x4, .f32⟩
  | .hbm, ⟨53, _⟩ => ⟨S64x8000x1x1, .f32⟩
  | .hbm, ⟨54, _⟩ => ⟨S64x8000x4x4, .f32⟩
  | .hbm, ⟨55, _⟩ => ⟨S64x8000x4x4, .f32⟩
  | .hbm, ⟨56, _⟩ => ⟨S_, .f32⟩
  | .hbm, ⟨57, _⟩ => ⟨S64x4x4, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64x1x1, .f32⟩
  | .hbm, ⟨65, _⟩ => ⟨S64x4x4, .f32⟩
  | .hbm, ⟨66, _⟩ => ⟨S64x4x4, .f32⟩
  | .hbm, ⟨67, _⟩ => ⟨S4, .i32⟩
  | .hbm, ⟨68, _⟩ => ⟨S1x4, .i32⟩
  | .hbm, ⟨69, _⟩ => ⟨S_, .i32⟩
  | .hbm, ⟨70, _⟩ => ⟨S1x4, .i32⟩
  | .hbm, ⟨71, _⟩ => ⟨S1x4, .i1⟩
  | .hbm, ⟨72, _⟩ => ⟨S_, .i32⟩
  | .hbm, ⟨73, _⟩ => ⟨S1x4, .i32⟩
  | .hbm, ⟨74, _⟩ => ⟨S1x4, .i32⟩
  | .hbm, ⟨75, _⟩ => ⟨S1x4, .i32⟩
  | .hbm, ⟨76, _⟩ => ⟨S_, .i32⟩
  | .hbm, ⟨77, _⟩ => ⟨S24x4, .i32⟩
  | .hbm, ⟨78, _⟩ => ⟨S24x4, .i1⟩
  | .hbm, ⟨79, _⟩ => ⟨S_, .i32⟩
  | .hbm, ⟨80, _⟩ => ⟨S24x4, .i32⟩
  | .hbm, ⟨81, _⟩ => ⟨S24x4, .i32⟩
  | .hbm, ⟨82, _⟩ => ⟨S24x4, .i32⟩
  | .hbm, ⟨83, _⟩ => ⟨S24x4, .i32⟩
  | .hbm, ⟨84, _⟩ => ⟨S24x4x1, .i32⟩
  | .hbm, ⟨85, _⟩ => ⟨S24x4x1, .i32⟩
  | .hbm, ⟨86, _⟩ => ⟨S24x4x2, .i32⟩
  | .hbm, ⟨87, _⟩ => ⟨S64x24x4, .f32⟩
  | .hbm, ⟨88, _⟩ => ⟨S_, .f32⟩
  | .hbm, ⟨89, _⟩ => ⟨S64x24, .f32⟩
  | .hbm, ⟨90, _⟩ => ⟨S_, .f32⟩
  | .hbm, ⟨91, _⟩ => ⟨S64x24, .f32⟩
  | .hbm, ⟨92, _⟩ => ⟨S64x24, .f32⟩
  | .hbm, ⟨93, _⟩ => ⟨S_, .f32⟩
  | .hbm, ⟨94, _⟩ => ⟨S64, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S64x8000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_1 : Ref sig .tc := ⟨.hbm, 56, rfl⟩
abbrev main_v20 : Ref sig .tc := ⟨.hbm, 57, rfl⟩
abbrev main_cst_2 : Ref sig .tc := ⟨.hbm, 58, rfl⟩
abbrev main_v21 : Ref sig .tc := ⟨.hbm, 59, rfl⟩
abbrev main_cst_3 : Ref sig .tc := ⟨.hbm, 60, rfl⟩
abbrev main_call2_v0 : Ref sig .tc := ⟨.hbm, 61, rfl⟩
abbrev main_call2_v1 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_c_4 : Ref sig .tc := ⟨.hbm, 69, rfl⟩
abbrev main_v28 : Ref sig .tc := ⟨.hbm, 70, rfl⟩
abbrev main_v29 : Ref sig .tc := ⟨.hbm, 71, rfl⟩
abbrev main_c_5 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_c_6 : Ref sig .tc := ⟨.hbm, 76, rfl⟩
abbrev main_v33 : Ref sig .tc := ⟨.hbm, 77, rfl⟩
abbrev main_v34 : Ref sig .tc := ⟨.hbm, 78, rfl⟩
abbrev main_c_7 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_8 : Ref sig .tc := ⟨.hbm, 88, rfl⟩
abbrev main_v43 : Ref sig .tc := ⟨.hbm, 89, rfl⟩
abbrev main_cst_9 : Ref sig .tc := ⟨.hbm, 90, rfl⟩
abbrev main_v44 : Ref sig .tc := ⟨.hbm, 91, rfl⟩
abbrev main_v45 : Ref sig .tc := ⟨.hbm, 92, rfl⟩
abbrev main_cst_10 : Ref sig .tc := ⟨.hbm, 93, rfl⟩
abbrev main_v46 : Ref sig .tc := ⟨.hbm, 94, rfl⟩
abbrev main_cst_11 : Ref sig .tc := ⟨.hbm, 95, rfl⟩
abbrev main_v47 : Ref sig .tc := ⟨.hbm, 96, rfl⟩
abbrev main_cst_12 : Ref sig .tc := ⟨.hbm, 97, rfl⟩
abbrev main_v48 : Ref sig .tc := ⟨.hbm, 98, rfl⟩

abbrev nD : Nat := 1
abbrev τ : Topo := Topo.v7x

variable {F : FTy → Type} [FloatOps F]

class Facts₀ : Prop where
  bcast_S64x8000x4_S64x8000x4x1_0_1_2 : S64x8000x4.BroadcastsInDim S64x8000x4x1 (![0, 1, 2] : Fin 3 → Fin S64x8000x4x1.rank)
  bcast_S64x8000x4_S64x8000x1x4_0_1_3 : S64x8000x4.BroadcastsInDim S64x8000x1x4 (![0, 1, 3] : Fin 3 → Fin S64x8000x1x4.rank)
  bcast_S_S64x8000x1x4 : S_.BroadcastsInDim S64x8000x1x4 (![] : Fin 0 → Fin S64x8000x1x4.rank)
  bcast_S_S64x8000x4x1 : S_.BroadcastsInDim S64x8000x4x1 (![] : Fin 0 → Fin S64x8000x4x1.rank)
  bcast_S64x8000x1x4_S64x8000x4x4_0_1_2_3 : S64x8000x1x4.BroadcastsInDim S64x8000x4x4 (![0, 1, 2, 3] : Fin 4 → Fin S64x8000x4x4.rank)
  bcast_S64x8000x4x1_S64x8000x4x4_0_1_2_3 : S64x8000x4x1.BroadcastsInDim S64x8000x4x4 (![0, 1, 2, 3] : Fin 4 → Fin S64x8000x4x4.rank)
  bcast_S64x8000_S64x8000x1x1_0_1 : S64x8000.BroadcastsInDim S64x8000x1x1 (![0, 1] : Fin 2 → Fin S64x8000x1x1.rank)
  bcast_S64x8000x1x1_S64x8000x4x4_0_1_2_3 : S64x8000x1x1.BroadcastsInDim S64x8000x4x4 (![0, 1, 2, 3] : Fin 4 → Fin S64x8000x4x4.rank)
  reducesTo_S64x8000x4x4_S64x4x4_d1 : S64x8000x4x4.ReducesTo [1] S64x4x4
  h_S_ : 0 < S_.numel
  reducesTo_S64x8000_S64_d1 : S64x8000.ReducesTo [1] S64
  bcast_S_S64 : S_.BroadcastsInDim S64 (![] : Fin 0 → Fin S64.rank)
  bcast_S64_S64x1x1_0 : S64.BroadcastsInDim S64x1x1 (![0] : Fin 1 → Fin S64x1x1.rank)
  bcast_S64x1x1_S64x4x4_0_1_2 : S64x1x1.BroadcastsInDim S64x4x4 (![0, 1, 2] : Fin 3 → Fin S64x4x4.rank)
  bcast_S4_S1x4_1 : S4.BroadcastsInDim S1x4 (![1] : Fin 1 → Fin S1x4.rank)
  bcast_S_S1x4 : S_.BroadcastsInDim S1x4 (![] : Fin 0 → Fin S1x4.rank)
  bcast_S_S24x4 : S_.BroadcastsInDim S24x4 (![] : Fin 0 → Fin S24x4.rank)
  bcast_S1x4_S24x4_0_1 : S1x4.BroadcastsInDim S24x4 (![0, 1] : Fin 2 → Fin S24x4.rank)
  bcast_S24x4_S24x4x1_0_1 : S24x4.BroadcastsInDim S24x4x1 (![0, 1] : Fin 2 → Fin S24x4x1.rank)
  concatenates_S24x4x1_S24x4x1_S24x4x2_d2 : Shape.Concatenates [S24x4x1, S24x4x1] S24x4x2 2
  reducesTo_S64x24x4_S64x24_d2 : S64x24x4.ReducesTo [2] S64x24
  bcast_S_S64x24 : S_.BroadcastsInDim S64x24 (![] : Fin 0 → Fin S64x24.rank)
  reducesTo_S64x24_S64_d1 : S64x24.ReducesTo [1] S64
  reducesTo_S64_S_d0 : S64.ReducesTo [0] S_
  gather_S64x4x4_S24x4x2_S64x24x4_0_12_n_n_12_2_6411_wf : GatherDims.WF S64x4x4 S24x4x2 S64x24x4 [0] [1, 2] [] [1, 2] [] 2 ![64, 1, 1]

variable [Facts₀]

def gather_S64x4x4_S24x4x2_S64x24x4_0_12_n_n_12_2_6411 : GatherDims S64x4x4 S24x4x2 S64x24x4 where
  offsetDims := [0]
  collapsedSliceDims := [1, 2]
  operandBatchingDims := []
  startIndicesBatchingDims := []
  startIndexMap := [1, 2]
  indexVectorDim := 2
  sliceSizes := ![64, 1, 1]
  wf := gather_S64x4x4_S24x4x2_S64x24x4_0_12_n_n_12_2_6411_wf

class Facts : Prop extends Facts₀ where

variable [Facts]
-- ==== Proof.PitSpec.lean ====
/-
  The mathematics shared by the two programs, stated once over the extended reals with no program in sight.

  Both programs compute, for a batch row b and a pair (i, j) of classes, a masked binary-cross-entropy cost summed over
  the 8000 frames and divided by the clipped number of valid frames.  With x_τ the logit of class i at frame τ, t_τ the
  target of class j, m_τ the mask, and  ls(z) = -softplus(-z)  the log-sigmoid,

    kernel     :  -( (3/2 · Σ_τ (ls(x_τ)·m_τ)·t_τ  +  Σ_τ ls(-x_τ)·m_τ)  -  Σ_τ (ls(-x_τ)·m_τ)·t_τ )  /  max(1, Σ_τ m_τ)
    reference  :  Σ_τ ( -( (3/2·t_τ)·ls(x_τ) + (1 - t_τ)·ls(-x_τ) ) · m_τ )                         /  max(1, Σ_τ m_τ)

  On finite x, t, m every term is a real number, the sums are finite sums of reals, and the two numerators agree by
  distributing the mask and the factor (1 - t_τ) and splitting the sum; the denominators are the same number.
-/
import Idealize.ShloMosaic.PureOps.Ideal
import Idealize.ShloMosaic.PureOps.Ideal.Laws

noncomputable section

namespace Cert.Pit

open Idealize.ShloMosaic

/-- The positive-class weight 3/2, as both programs spell it. -/
abbrev w15 : EReal := Ideal.ofBits .f32 0x3FC00000#32
/-- The number one, as both programs spell it. -/
abbrev one32 : EReal := Ideal.ofBits .f32 0x3F800000#32

/-- softplus(y) = max(y, 0) + log(1 + e^(-|y|)), the stable form both programs use (their guard for an undefined
    difference never fires on the extended reals, where every number equals itself). -/
def softplus (y : EReal) : EReal := max y 0 + Ideal.log1p (Ideal.exp (-(max y (-y))))

/-- The log-sigmoid: ls(z) = -softplus(-z). -/
def lsig (z : EReal) : EReal := -(softplus (-z))

/-- One entry of the cost matrix as the kernel accumulates it: three separate sums over the frames. -/
def entryK (xi tj mk : Fin 8000 → EReal) : EReal :=
  Ideal.div
    (0 - ((w15 * (∑ τ : Fin 8000, (lsig (xi τ) * mk τ) * tj τ) + ∑ τ : Fin 8000, lsig (-(xi τ)) * mk τ)
            - ∑ τ : Fin 8000, (lsig (-(xi τ)) * mk τ) * tj τ))
    (max one32 (∑ τ : Fin 8000, mk τ))

/-- The same entry as the reference computes it: one sum of the masked per-frame cost. -/
def entryR (xi tj mk : Fin 8000 → EReal) : EReal :=
  Ideal.div
    (0 + ∑ τ : Fin 8000, (-((w15 * tj τ) * lsig (xi τ) + (one32 - tj τ) * lsig (-(xi τ)))) * mk τ)
    (max one32 (0 + ∑ τ : Fin 8000, mk τ))

/-- The positive-class weight is the real number 3/2. -/
theorem w15_eq : w15 = ((3 / 2 : ℝ) : EReal) := by
  simp [Ideal.ofBits, Ideal.ieee, -EReal.coe_mul]; norm_num

/-- The literal one is the real number 1. -/
theorem one32_eq : one32 = ((1 : ℝ) : EReal) := by
  simp [Ideal.ofBits, Ideal.ieee, -EReal.coe_mul]; norm_num

/-- softplus on the reals, in the same stable form. -/
def softplusR (y : ℝ) : ℝ := max y 0 + Real.log (1 + Real.exp (-(max y (-y))))

/-- The log-sigmoid on the reals. -/
def lsigR (z : ℝ) : ℝ := -(softplusR (-z))

/-- The coercion of the reals into the extended reals is monotone, so it carries max to max. -/
theorem coe_max (a b : ℝ) : ((max a b : ℝ) : EReal) = max (a : EReal) (b : EReal) :=
  EReal.coe_strictMono.monotone.map_max

/-- softplus of a real is the real softplus: 1 + e^(-|y|) is positive, so its logarithm is a real number. -/
theorem softplus_coe (y : ℝ) : softplus (y : EReal) = (softplusR y : EReal) := by
  have hpos : ¬ (1 + Real.exp (-(max y (-y))) ≤ 0) := not_le.mpr (by positivity)
  unfold softplus softplusR Ideal.log1p
  rw [← EReal.coe_neg, ← coe_max, ← EReal.coe_neg, Ideal.exp_coe, ← EReal.coe_one, ← EReal.coe_add,
    Ideal.log_coe, if_neg hpos, ← EReal.coe_zero, ← coe_max, ← EReal.coe_add]

/-- The log-sigmoid of a real is the real log-sigmoid. -/
theorem lsig_coe_eq (z : ℝ) : lsig (z : EReal) = (lsigR z : EReal) := by
  unfold lsig lsigR
  rw [← EReal.coe_neg, softplus_coe, ← EReal.coe_neg]

/-- The log-sigmoid of a real is a real. -/
theorem lsig_coe (r : ℝ) : ∃ s : ℝ, lsig (r : EReal) = (s : EReal) := ⟨lsigR r, lsig_coe_eq r⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On finite logits, targets and mask the two entries are the same extended real. -/
theorem entry_eq (xi tj mk : Fin 8000 → EReal)
    (hx : ∀ τ, ∃ r : ℝ, xi τ = (r : EReal)) (ht : ∀ τ, ∃ r : ℝ, tj τ = (r : EReal)) (hm : ∀ τ, ∃ r : ℝ, mk τ = (r : EReal)) :
    entryK xi tj mk = entryR xi tj mk := by
  choose xr hxr using hx
  choose tr htr using ht
  choose mr hmr using hm
  obtain rfl : xi = fun τ => (xr τ : EReal) := funext hxr
  obtain rfl : tj = fun τ => (tr τ : EReal) := funext htr
  obtain rfl : mk = fun τ => (mr τ : EReal) := funext hmr
  -- the two numerators are coercions of the same real number
  have hnum :
      (0 - ((w15 * (∑ τ : Fin 8000, (lsig (xr τ : EReal) * (mr τ : EReal)) * (tr τ : EReal))
              + ∑ τ : Fin 8000, lsig (-(xr τ : EReal)) * (mr τ : EReal))
            - ∑ τ : Fin 8000, (lsig (-(xr τ : EReal)) * (mr τ : EReal)) * (tr τ : EReal)) : EReal)
        = 0 + ∑ τ : Fin 8000,
            (-((w15 * (tr τ : EReal)) * lsig (xr τ : EReal) + (one32 - (tr τ : EReal)) * lsig (-(xr τ : EReal)))) * (mr τ : EReal) := by
    simp only [w15_eq, one32_eq, ← EReal.coe_neg, lsig_coe_eq, ← EReal.coe_mul, ← EReal.coe_sub, ← EReal.coe_add,
      ← coe_sum, ← EReal.coe_zero]
    congr 1
    rw [Finset.mul_sum, ← Finset.sum_add_distrib, ← Finset.sum_sub_distrib, zero_sub, zero_add, ← Finset.sum_neg_distrib]
    exact Finset.sum_congr rfl (fun τ _ => by ring)
  unfold entryK entryR
  rw [hnum, zero_add, zero_add]

end Cert.Pit

end
-- ==== Proof.Finite.lean ====
/-
  What the precondition gives: the certificate assumes every float input finite, stated as three conjoined tests
  "all |x| < +∞", one per argument.  Read on the extended reals, |x| = max(x, -x) is +∞ exactly at the two infinities,
  so passing the test makes every logit, target and mask entry a real number.  This is the only use of the
  precondition: it is what lets the two programs' sums be rearranged.
-/
import proofs.«164727_j77919296684577_1_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section
namespace Cert.Pit
open Idealize.ShloMosaic

/-- The f32 pattern `0x7F800000` (sign clear, exponent all ones, significand zero) is `+∞`. -/
private theorem ofBits_inf_f32 : Ideal.ofBits .f32 0x7F800000#32 = (⊤ : EReal) := by
  simp [Ideal.ofBits, Ideal.ieee]

/-- An extended real whose absolute value `max x (-x)` is strictly below `+∞` is a real number:
at `⊥` and at `⊤` the absolute value is `⊤`. -/
private theorem real_of_abs_lt_top (x : EReal)
    (h : FloatOps.cmpf (F := Ideal) (φ := .f32) .olt (FloatOps.absf (F := Ideal) (φ := .f32) x)
      (Ideal.ofBits .f32 0x7F800000#32) = 1#1) : ∃ r : ℝ, x = (r : EReal) := by
  rw [Ideal.cmpf_def, Ideal.absf_def, ofBits_inf_f32] at h
  induction x using EReal.rec with
  | bot => simp [Ideal.cmp] at h
  | coe r => exact ⟨r, rfl⟩
  | top => simp [Ideal.cmp] at h

/-- Under `finite_inputs` every logit, target and mask entry is a real number. -/
theorem finite_of_pre [Cert.Pre_finite_inputs.Facts]
    (a0 a1 : FVec Ideal Cert.Pre_finite_inputs.S64x8000x4 .f32) (a2 : FVec Ideal Cert.Pre_finite_inputs.S64x8000 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  haveI : Subsingleton Cert.Pre_finite_inputs.S_.Idx := ⟨fun a b => funext fun d => d.elim0⟩
  have h0 := congrFun h ValueIdx.ix0
  unfold Cert.Pre_finite_inputs.fn at h0
  dsimp only at h0
  obtain ⟨h01, h2⟩ := IntOp.andi_eq_one.1 h0
  obtain ⟨h0', h1⟩ := IntOp.andi_eq_one.1 h01
  refine ⟨fun i => ?_, fun i => ?_, fun i => ?_⟩
  · exact real_of_abs_lt_top (a0 i) (Host.reduce_andi_all _ _ _ _ _ h0' i)
  · exact real_of_abs_lt_top (a1 i) (Host.reduce_andi_all _ _ _ _ _ h1 i)
  · exact real_of_abs_lt_top (a2 i) (Host.reduce_andi_all _ _ _ _ _ h2 i)
end Cert.Pit
end
-- ==== Proof.RefCost.lean ====
/-
  The reference's cost matrix as ONE function of its three arguments, and its entries.

  The reference broadcasts the logits to [64, 8000, 4, 1] and the targets to [64, 8000, 1, 4], forms the per-frame
  pairwise cost  -( (3/2 · t_j) · ls(x_i) + (1 - t_j) · ls(-x_i) )  on [64, 8000, 4, 4], multiplies by the mask, sums
  over the frames and divides by the clipped count of valid frames.  Read at an index (b, i, j) this is the
  one-sum form of the entry.
-/
import proofs.«164727_j77919296684577_1_alg».proof.Proof.Gen.ReferenceIdeal
import proofs.«164727_j77919296684577_1_alg».proof.Proof.PitSpec
import Idealize.ShloMosaic.Lib.ValueIdx
import Idealize.ShloMosaic.Lib.ValueLayout
import Idealize.ShloMosaic.Lib.Pipeline.Value
import Idealize.ShloMosaic.PureOps.Ideal.Laws

noncomputable section

namespace Cert.Pit

open Idealize.ShloMosaic Idealize.ShloMosaic.ValueIdx Cert.ReferenceIdeal Cert.ReferenceIdeal.Facts₀

/-- The zero array the reference's softplus compares and adds with. -/
def zeros4 : FVec Ideal S64x8000x4x1 .f32 :=
  broadcastInDim S64x8000x4x1 ![] bcast_S_S64x8000x4x1 (constant (F := Ideal) S_ .f32 0x00000000#32)

/-- The reference's softplus on a [64, 8000, 4, 1] array, operation by operation. -/
def softplusT (y : FVec Ideal S64x8000x4x1 .f32) : FVec Ideal S64x8000x4x1 .f32 :=
  select (cmpf .une (subf y zeros4) (subf y zeros4)) (addf y zeros4)
    (addf (maximumf y zeros4) (Host.log1p (Host.exp (Host.negf (Host.absf (subf y zeros4))))))

/-- The reference's log-sigmoid: the negated softplus of the negated argument. -/
def lsigT (z : FVec Ideal S64x8000x4x1 .f32) : FVec Ideal S64x8000x4x1 .f32 :=
  Host.negf (softplusT (Host.negf z))

/-- The reference's [64, 4, 4] cost matrix from logits a0, targets a1 and mask a2, operation by operation. -/
def refCost (a0 a1 : FVec Ideal S64x8000x4 .f32) (a2 : FVec Ideal S64x8000 .f32) : FVec Ideal S64x4x4 .f32 :=
  Host.divf (F := Ideal)
    (Host.reduceAdd (F := Ideal)
      (mulf
        (Host.negf
          (addf
            (mulf
              (broadcastInDim S64x8000x4x4 ![0, 1, 2, 3] bcast_S64x8000x1x4_S64x8000x4x4_0_1_2_3
                (mulf (broadcastInDim S64x8000x1x4 ![] bcast_S_S64x8000x1x4 (constant (F := Ideal) S_ .f32 0x3FC00000#32))
                  (broadcastInDim S64x8000x1x4 ![0, 1, 3] bcast_S64x8000x4_S64x8000x1x4_0_1_3 a1)))
              (broadcastInDim S64x8000x4x4 ![0, 1, 2, 3] bcast_S64x8000x4x1_S64x8000x4x4_0_1_2_3
                (lsigT (broadcastInDim S64x8000x4x1 ![0, 1, 2] bcast_S64x8000x4_S64x8000x4x1_0_1_2 a0))))
            (mulf
              (broadcastInDim S64x8000x4x4 ![0, 1, 2, 3] bcast_S64x8000x1x4_S64x8000x4x4_0_1_2_3
                (subf (broadcastInDim S64x8000x1x4 ![] bcast_S_S64x8000x1x4 (constant (F := Ideal) S_ .f32 0x3F800000#32))
                  (broadcastInDim S64x8000x1x4 ![0, 1, 3] bcast_S64x8000x4_S64x8000x1x4_0_1_3 a1)))
              (broadcastInDim S64x8000x4x4 ![0, 1, 2, 3] bcast_S64x8000x4x1_S64x8000x4x4_0_1_2_3
                (lsigT (Host.negf (broadcastInDim S64x8000x4x1 ![0, 1, 2] bcast_S64x8000x4_S64x8000x4x1_0_1_2 a0)))))))
        (broadcastInDim S64x8000x4x4 ![0, 1, 2, 3] bcast_S64x8000x1x1_S64x8000x4x4_0_1_2_3
          (broadcastInDim S64x8000x1x1 ![0, 1] bcast_S64x8000_S64x8000x1x1_0_1 a2)))
      (constant (F := Ideal) S_ .f32 0x00000000#32) reducesTo_S64x8000x4x4_S64x4x4_d1 h_S_)
    (broadcastInDim S64x4x4 ![0, 1, 2] bcast_S64x1x1_S64x4x4_0_1_2
      (broadcastInDim S64x1x1 ![0] bcast_S64_S64x1x1_0
        (maximumf (broadcastInDim S64 ![] bcast_S_S64 (id (constant (F := Ideal) S_ .f32 0x3F800000#32)))
          (Host.reduceAdd (F := Ideal) a2 (constant (F := Ideal) S_ .f32 0x00000000#32) reducesTo_S64x8000_S64_d1 h_S_))))

/-! ### The pointwise pieces read at an index -/

/-- The zero array is zero everywhere. -/
theorem zeros4_apply (j : S64x8000x4x1.Idx) : zeros4 j = 0 := by
  unfold zeros4
  refine (broadcastInDim_apply _ _ _ j ix0 (fun a => a.elim0)).trans ?_
  exact Ideal.ofBits_zero_f32

/-- The comparison "a differs from a" is never true on the extended reals. -/
theorem cmp_une_self (a : EReal) : Ideal.cmp .une a a = 0#1 := by
  simp [Ideal.cmp]

/-- The reference's softplus at an index is the softplus of the element: subtracting and adding the zero array changes
    nothing, the guard never fires, and |y| is max(y, -y). -/
theorem softplusT_apply (y : FVec Ideal S64x8000x4x1 .f32) (j : S64x8000x4x1.Idx) : softplusT y j = softplus (y j) := by
  show Scalar.select (Ideal.cmp .une (y j - zeros4 j) (y j - zeros4 j)) (y j + zeros4 j)
      (max (y j) (zeros4 j) + Ideal.log1p (Ideal.exp (-(max (y j - zeros4 j) (-(y j - zeros4 j)))))) = _
  rw [zeros4_apply, sub_zero, cmp_une_self, select_zero]
  rfl

/-- The reference's log-sigmoid at an index is the log-sigmoid of the element. -/
theorem lsigT_apply (z : FVec Ideal S64x8000x4x1 .f32) (j : S64x8000x4x1.Idx) : lsigT z j = lsig (z j) := by
  show -(softplusT (Host.negf z) j) = -(softplus (-(z j)))
  rw [softplusT_apply]
  rfl

/-- The host's negation at an index negates the element. -/
theorem hostNegf_apply {s : Shape} {φ : FTy} (a : FVec Ideal s φ) (k : s.Idx) : Host.negf a k = -(a k) := rfl

/-! ### The broadcasts read at an index given by its coordinates -/

section Bcast
variable {α : Type}

theorem bc_1x4_4x4 (x : S64x8000x1x4.Idx → α) (b : Fin 64) (τ : Fin 8000) (i j : Fin 4) :
    broadcastInDim S64x8000x4x4 ![0, 1, 2, 3] bcast_S64x8000x1x4_S64x8000x4x4_0_1_2_3 x (ix4 b τ i j)
      = x (ix4 b τ (0 : Fin 1) j) :=
  broadcastInDim_apply _ _ x _ _ (fun a => match a with | ⟨0, _⟩ => rfl | ⟨1, _⟩ => rfl | ⟨2, _⟩ => rfl | ⟨3, _⟩ => rfl)

theorem bc_4x1_4x4 (x : S64x8000x4x1.Idx → α) (b : Fin 64) (τ : Fin 8000) (i j : Fin 4) :
    broadcastInDim S64x8000x4x4 ![0, 1, 2, 3] bcast_S64x8000x4x1_S64x8000x4x4_0_1_2_3 x (ix4 b τ i j)
      = x (ix4 b τ i (0 : Fin 1)) :=
  broadcastInDim_apply _ _ x _ _ (fun a => match a with | ⟨0, _⟩ => rfl | ⟨1, _⟩ => rfl | ⟨2, _⟩ => rfl | ⟨3, _⟩ => rfl)

theorem bc_1x1_4x4 (x : S64x8000x1x1.Idx → α) (b : Fin 64) (τ : Fin 8000) (i j : Fin 4) :
    broadcastInDim S64x8000x4x4 ![0, 1, 2, 3] bcast_S64x8000x1x1_S64x8000x4x4_0_1_2_3 x (ix4 b τ i j)
      = x (ix4 b τ (0 : Fin 1) (0 : Fin 1)) :=
  broadcastInDim_apply _ _ x _ _ (fun a => match a with | ⟨0, _⟩ => rfl | ⟨1, _⟩ => rfl | ⟨2, _⟩ => rfl | ⟨3, _⟩ => rfl)

theorem bc_3_1x4 (x : S64x8000x4.Idx → α) (b : Fin 64) (τ : Fin 8000) (j : Fin 4) :
    broadcastInDim S64x8000x1x4 ![0, 1, 3] bcast_S64x8000x4_S64x8000x1x4_0_1_3 x (ix4 b τ (0 : Fin 1) j)
      = x (ix3 b τ j) :=
  broadcastInDim_apply _ _ x _ _ (fun a => match a with | ⟨0, _⟩ => rfl | ⟨1, _⟩ => rfl | ⟨2, _⟩ => rfl)

theorem bc_3_4x1 (x : S64x8000x4.Idx → α) (b : Fin 64) (τ : Fin 8000) (i : Fin 4) :
    broadcastInDim S64x8000x4x1 ![0, 1, 2] bcast_S64x8000x4_S64x8000x4x1_0_1_2 x (ix4 b τ i (0 : Fin 1))
      = x (ix3 b τ i) :=
  broadcastInDim_apply _ _ x _ _ (fun a => match a with | ⟨0, _⟩ => rfl | ⟨1, _⟩ => rfl | ⟨2, _⟩ => rfl)

theorem bc_2_1x1 (x : S64x8000.Idx → α) (b : Fin 64) (τ : Fin 8000) :
    broadcastInDim S64x8000x1x1 ![0, 1] bcast_S64x8000_S64x8000x1x1_0_1 x (ix4 b τ (0 : Fin 1) (0 : Fin 1))
      = x (ix2 b τ) :=
  broadcastInDim_apply _ _ x _ _ (fun a => match a with | ⟨0, _⟩ => rfl | ⟨1, _⟩ => rfl)

theorem bc_s_1x4 (x : S_.Idx → α) (j : S64x8000x1x4.Idx) :
    broadcastInDim S64x8000x1x4 ![] bcast_S_S64x8000x1x4 x j = x ix0 :=
  broadcastInDim_apply _ _ x _ _ (fun a => a.elim0)

theorem bc_s_64 (x : S_.Idx → α) (j : S64.Idx) :
    broadcastInDim S64 ![] bcast_S_S64 x j = x ix0 :=
  broadcastInDim_apply _ _ x _ _ (fun a => a.elim0)

theorem bc_64x1x1_64x4x4 (x : S64x1x1.Idx → α) (b : Fin 64) (i j : Fin 4) :
    broadcastInDim S64x4x4 ![0, 1, 2] bcast_S64x1x1_S64x4x4_0_1_2 x (ix3 b i j) = x (ix3 b (0 : Fin 1) (0 : Fin 1)) :=
  broadcastInDim_apply _ _ x _ _ (fun a => match a with | ⟨0, _⟩ => rfl | ⟨1, _⟩ => rfl | ⟨2, _⟩ => rfl)

theorem bc_64_64x1x1 (x : S64.Idx → α) (b : Fin 64) :
    broadcastInDim S64x1x1 ![0] bcast_S64_S64x1x1_0 x (ix3 b (0 : Fin 1) (0 : Fin 1)) = x (ix1 b) :=
  broadcastInDim_apply _ _ x _ _ (fun a => match a with | ⟨0, _⟩ => rfl)

end Bcast

/-! ### The two sums over the frames -/

/-- The frames axis of the [64, 8000, 4, 4] array reduces to [64, 4, 4]. -/
theorem red4 : S64x8000x4x4.Reduces [1] S64x4x4 := by decide
/-- The frames axis of the [64, 8000] mask reduces to [64]. -/
theorem red2 : S64x8000.Reduces [1] S64 := by decide

theorem red4_lift (b : Fin 64) (i j : Fin 4) (τ : Fin 8000) : red4.lift (ix3 b i j) τ = ix4 b τ i j := by
  funext a
  match a with
  | ⟨0, _⟩ => rfl
  | ⟨1, _⟩ => rfl
  | ⟨2, _⟩ => rfl
  | ⟨3, _⟩ => rfl

theorem red2_lift (b : Fin 64) (τ : Fin 8000) : red2.lift (ix1 b) τ = ix2 b τ := by
  funext a
  match a with
  | ⟨0, _⟩ => rfl
  | ⟨1, _⟩ => rfl

/-- The host's sum of a [64, 8000, 4, 4] array over the frames, from a zero initial value, read at (b, i, j). -/
theorem sum4_apply (X : FVec Ideal S64x8000x4x4 .f32) (b : Fin 64) (i j : Fin 4) :
    Host.reduceAdd (F := Ideal) X (constant (F := Ideal) S_ .f32 0x00000000#32) reducesTo_S64x8000x4x4_S64x4x4_d1 h_S_ (ix3 b i j)
      = 0 + ∑ τ : Fin 8000, X (ix4 b τ i j) := by
  refine (Ideal.hostReduceAdd_single reducesTo_S64x8000x4x4_S64x4x4_d1 red4 X _ (ix3 b i j)).trans ?_
  refine congrArg₂ (· + ·) Ideal.ofBits_zero_f32 ?_
  exact Finset.sum_congr rfl (fun τ _ => congrArg X (red4_lift b i j τ))

/-- The host's sum of the mask over the frames, from a zero initial value, read at b. -/
theorem sum2_apply (X : FVec Ideal S64x8000 .f32) (b : Fin 64) :
    Host.reduceAdd (F := Ideal) X (constant (F := Ideal) S_ .f32 0x00000000#32) reducesTo_S64x8000_S64_d1 h_S_ (ix1 b)
      = 0 + ∑ τ : Fin 8000, X (ix2 b τ) := by
  refine (Ideal.hostReduceAdd_single reducesTo_S64x8000_S64_d1 red2 X _ (ix1 b)).trans ?_
  refine congrArg₂ (· + ·) Ideal.ofBits_zero_f32 ?_
  exact Finset.sum_congr rfl (fun τ _ => congrArg X (red2_lift b τ))

/-- Entry (b, i, j) of the reference's cost matrix is the one-sum form of the masked cost of logit class i against
    target class j on batch row b. -/
theorem refCost_apply (a0 a1 : FVec Ideal S64x8000x4 .f32) (a2 : FVec Ideal S64x8000 .f32) (b : Fin 64) (i j : Fin 4) :
    refCost a0 a1 a2 (ix3 b i j)
      = entryR (fun τ => a0 (ix3 b τ i)) (fun τ => a1 (ix3 b τ j)) (fun τ => a2 (ix2 b τ)) := by
  unfold refCost entryR
  refine congrArg₂ Ideal.div ?_ ?_
  · refine (sum4_apply _ b i j).trans ?_
    refine congrArg (0 + ·) (Finset.sum_congr rfl (fun τ _ => ?_))
    simp only [mulf_apply, addf_apply, hostNegf_apply]
    refine congrArg₂ (· * ·) (congrArg Neg.neg (congrArg₂ (· + ·) (congrArg₂ (· * ·) ?_ ?_) (congrArg₂ (· * ·) ?_ ?_))) ?_
    · refine (bc_1x4_4x4 _ b τ i j).trans ((mulf_apply _ _ _).trans (congrArg₂ (· * ·) (bc_s_1x4 _ _) (bc_3_1x4 a1 b τ j)))
    · exact (bc_4x1_4x4 _ b τ i j).trans ((lsigT_apply _ _).trans (congrArg lsig (bc_3_4x1 a0 b τ i)))
    · refine (bc_1x4_4x4 _ b τ i j).trans ((subf_apply _ _ _).trans (congrArg₂ (· - ·) (bc_s_1x4 _ _) (bc_3_1x4 a1 b τ j)))
    · exact (bc_4x1_4x4 _ b τ i j).trans ((lsigT_apply _ _).trans (congrArg lsig
        ((hostNegf_apply _ _).trans (congrArg Neg.neg (bc_3_4x1 a0 b τ i)))))
    · exact (bc_1x1_4x4 _ b τ i j).trans (bc_2_1x1 a2 b τ)
  · refine (bc_64x1x1_64x4x4 _ b i j).trans ?_
    refine (bc_64_64x1x1 _ b).trans ?_
    refine congrArg₂ max ?_ (sum2_apply a2 b)
    exact bc_s_64 _ _

end Cert.Pit

end
-- ==== Proof.PitTail.lean ====
/-
  The permutation search both programs end with, as ONE function of the [64, 4, 4] cost matrix: for each of the 24
  permutations π of the four classes gather the entries cost[b, i, π(i)], sum them over i and divide by 4, take the
  minimum over the permutations, and average the 64 minima.  The two programs apply the same operations in the same
  order to their cost matrices, so this function is never opened: equal cost matrices give equal losses.
-/
import proofs.«164727_j77919296684577_1_alg».proof.Proof.Gen.KernelIdeal
import Idealize.ShloMosaic.PureOps.Ideal

noncomputable section

namespace Cert.Pit

open Idealize.ShloMosaic Cert.KernelIdeal Cert.KernelIdeal.Facts₀

/-- The table of the 24 permutations of {0, 1, 2, 3}, one per row. -/
def permTable : IVec S24x4 32 := fun i => lit0 (S24x4.rowMajor i)

/-- The gather's index pairs (i, π(i)): the row index i beside the table's entry, each normalised as jnp indexing
    does (a negative index is taken from the end; none is negative here). -/
def permIdx (perm : IVec S24x4 32) : IVec S24x4x2 32 :=
  concatenate S24x4x2 2
    [⟨S24x4x1, broadcastInDim S24x4x1 ![0, 1] bcast_S24x4_S24x4x1_0_1
        (broadcastInDim S24x4 ![0, 1] bcast_S1x4_S24x4_0_1
          (select
            (cmpi .slt (broadcastInDim S1x4 ![1] bcast_S4_S1x4_1 (iotaInDim S4 32 0))
              (broadcastInDim S1x4 ![] bcast_S_S1x4 (constantI S_ 32 0#32)))
            (addi (broadcastInDim S1x4 ![1] bcast_S4_S1x4_1 (iotaInDim S4 32 0))
              (broadcastInDim S1x4 ![] bcast_S_S1x4 (constantI S_ 32 4#32)))
            (broadcastInDim S1x4 ![1] bcast_S4_S1x4_1 (iotaInDim S4 32 0))))⟩,
     ⟨S24x4x1, broadcastInDim S24x4x1 ![0, 1] bcast_S24x4_S24x4x1_0_1
        (select (cmpi .slt perm (broadcastInDim S24x4 ![] bcast_S_S24x4 (constantI S_ 32 0#32)))
          (addi perm (broadcastInDim S24x4 ![] bcast_S_S24x4 (constantI S_ 32 4#32))) perm)⟩]
    concatenates_S24x4x1_S24x4x1_S24x4x2_d2

/-- The loss from the cost matrix: mean over the batch of the minimum over permutations of the mean matched cost. -/
def tail (perm : IVec S24x4 32) (cost : FVec Ideal S64x4x4 .f32) : FVec Ideal S_ .f32 :=
  Host.divf (F := Ideal)
    (Host.reduceAdd (F := Ideal)
      (Host.reduce FloatOps.minimumf
        (Host.divf (F := Ideal)
          (Host.reduceAdd (F := Ideal)
            (Host.gather gather_S64x4x4_S24x4x2_S64x24x4_0_12_n_n_12_2_6411 cost (permIdx perm))
            (constant (F := Ideal) S_ .f32 0x00000000#32) reducesTo_S64x24x4_S64x24_d2 h_S_)
          (broadcastInDim S64x24 ![] bcast_S_S64x24 (constant (F := Ideal) S_ .f32 0x40800000#32)))
        (constant (F := Ideal) S_ .f32 0x7F800000#32) reducesTo_S64x24_S64_d1 h_S_)
      (constant (F := Ideal) S_ .f32 0x00000000#32) reducesTo_S64_S_d0 h_S_)
    (constant (F := Ideal) S_ .f32 0x42800000#32)

end Cert.Pit

end
-- ==== Proof.RefRun.lean ====
/-
  The reference program's run, read back.

  The reference's @main is a straight line of host operations once its three outlined functions (softplus,
  log_sigmoid, clip) are unfolded at their calls.  Listed in order, the line splits in two: the first 64 operations
  build the [64, 4, 4] cost matrix from the three arguments, the last 32 are the search over the 24 permutations.
  Every weakly fair execution runs the line to its end; the result buffer then holds the permutation search applied to
  the cost matrix of the arguments, and the arguments are untouched.  The permutation search is the kernel program's,
  operation for operation, over shapes that are the same literals, so it is named by the one shared function.
-/
import proofs.«164727_j77919296684577_1_alg».proof.Proof.Gen.ReferenceIdeal
import proofs.«164727_j77919296684577_1_alg».proof.Proof.RefCost
import proofs.«164727_j77919296684577_1_alg».proof.Proof.PitTail
import Idealize.ShloMosaic.Lib.StableHlo.Run

noncomputable section

namespace Cert.Pit.RefRun

open Cert.ReferenceIdeal Cert.ReferenceIdeal.Gen Idealize.ShloMosaic Idealize.ShloMosaic.TcCoe Idealize.SL.Sem Idealize.ShloMosaic.StableHlo

variable {F : FTy → Type} [FloatOps F]

/-- The operations up to the cost matrix, the calls' bodies listed inline at their call sites. -/
abbrev opsCost : List (HloOp τ sig (Elt F)) :=
  [ nullary main_c (fun i => lit0 (S24x4.rowMajor i)),
    unary main_arg0 main_v0 (broadcastInDim S64x8000x4x1 ![0, 1, 2] bcast_S64x8000x4_S64x8000x4x1_0_1_2 : (⟨S64x8000x4, .f32⟩ : BufTy).Contents (Elt F) → (⟨S64x8000x4x1, .f32⟩ : BufTy).Contents (Elt F)),
    unary main_arg1 main_v1 (broadcastInDim S64x8000x1x4 ![0, 1, 3] bcast_S64x8000x4_S64x8000x1x4_0_1_3 : (⟨S64x8000x4, .f32⟩ : BufTy).Contents (Elt F) → (⟨S64x8000x1x4, .f32⟩ : BufTy).Contents (Elt F)),
    nullary main_cst (constant S_ .f32 0x3FC00000#32),
    unary main_cst main_v2 (broadcastInDim S64x8000x1x4 ![] bcast_S_S64x8000x1x4 : (⟨S_, .f32⟩ : BufTy).Contents (Elt F) → (⟨S64x8000x1x4, .f32⟩ : BufTy).Contents (Elt F)),
    binary main_v2 main_v1 main_v3 (mulf : (⟨S64x8000x1x4, .f32⟩ : BufTy).Contents (Elt F) → (⟨S64x8000x1x4, .f32⟩ : BufTy).Contents (Elt F) → (⟨S64x8000x1x4, .f32⟩ : BufTy).Contents (Elt F)),
    TRef.unary (.of main_v0 : TRef sig ⟨S64x8000x4x1, .f32⟩) main_call0.v0 Host.negf,
    TRef.nullary main_call0.call0.cst (constant S_ .f32 0x00000000#32),
    TRef.unary main_call0.call0.cst main_call0.call0.v0 (broadcastInDim S64x8000x4x1 ![] bcast_S_S64x8000x4x1),
    TRef.binary main_call0.v0 main_call0.call0.v0 main_call0.call0.v1 maximumf,
    TRef.unary main_call0.call0.cst main_call0.call0.v2 (broadcastInDim S64x8000x4x1 ![] bcast_S_S64x8000x4x1),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S64x8000x4x1 ![] bcast_S_S64x8000x4x1),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    unary main_v3 main_v5 (broadcastInDim S64x8000x4x4 ![0, 1, 2, 3] bcast_S64x8000x1x4_S64x8000x4x4_0_1_2_3 : (⟨S64x8000x1x4, .f32⟩ : BufTy).Contents (Elt F) → (⟨S64x8000x4x4, .f32⟩ : BufTy).Contents (Elt F)),
    unary main_v4 main_v6 (broadcastInDim S64x8000x4x4 ![0, 1, 2, 3] bcast_S64x8000x4x1_S64x8000x4x4_0_1_2_3 : (⟨S64x8000x4x1, .f32⟩ : BufTy).Contents (Elt F) → (⟨S64x8000x4x4, .f32⟩ : BufTy).Contents (Elt F)),
    binary main_v5 main_v6 main_v7 (mulf : (⟨S64x8000x4x4, .f32⟩ : BufTy).Contents (Elt F) → (⟨S64x8000x4x4, .f32⟩ : BufTy).Contents (Elt F) → (⟨S64x8000x4x4, .f32⟩ : BufTy).Contents (Elt F)),
    nullary main_cst_0 (constant S_ .f32 0x3F800000#32),
    unary main_cst_0 main_v8 (broadcastInDim S64x8000x1x4 ![] bcast_S_S64x8000x1x4 : (⟨S_, .f32⟩ : BufTy).Contents (Elt F) → (⟨S64x8000x1x4, .f32⟩ : BufTy).Contents (Elt F)),
    binary main_v8 main_v1 main_v9 (subf : (⟨S64x8000x1x4, .f32⟩ : BufTy).Contents (Elt F) → (⟨S64x8000x1x4, .f32⟩ : BufTy).Contents (Elt F) → (⟨S64x8000x1x4, .f32⟩ : BufTy).Contents (Elt F)),
    unary main_v0 main_v10 (Host.negf : (⟨S64x8000x4x1, .f32⟩ : BufTy).Contents (Elt F) → (⟨S64x8000x4x1, .f32⟩ : BufTy).Contents (Elt F)),
    TRef.unary (.of main_v10 : TRef sig ⟨S64x8000x4x1, .f32⟩) main_call1.v0 Host.negf,
    TRef.nullary main_call1.call0.cst (constant S_ .f32 0x00000000#32),
    TRef.unary main_call1.call0.cst main_call1.call0.v0 (broadcastInDim S64x8000x4x1 ![] bcast_S_S64x8000x4x1),
    TRef.binary main_call1.v0 main_call1.call0.v0 main_call1.call0.v1 maximumf,
    TRef.unary main_call1.call0.cst main_call1.call0.v2 (broadcastInDim S64x8000x4x1 ![] bcast_S_S64x8000x4x1),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S64x8000x4x1 ![] bcast_S_S64x8000x4x1),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    unary main_v9 main_v12 (broadcastInDim S64x8000x4x4 ![0, 1, 2, 3] bcast_S64x8000x1x4_S64x8000x4x4_0_1_2_3 : (⟨S64x8000x1x4, .f32⟩ : BufTy).Contents (Elt F) → (⟨S64x8000x4x4, .f32⟩ : BufTy).Contents (Elt F)),
    unary main_v11 main_v13 (broadcastInDim S64x8000x4x4 ![0, 1, 2, 3] bcast_S64x8000x4x1_S64x8000x4x4_0_1_2_3 : (⟨S64x8000x4x1, .f32⟩ : BufTy).Contents (Elt F) → (⟨S64x8000x4x4, .f32⟩ : BufTy).Contents (Elt F)),
    binary main_v12 main_v13 main_v14 (mulf : (⟨S64x8000x4x4, .f32⟩ : BufTy).Contents (Elt F) → (⟨S64x8000x4x4, .f32⟩ : BufTy).Contents (Elt F) → (⟨S64x8000x4x4, .f32⟩ : BufTy).Contents (Elt F)),
    binary main_v7 main_v14 main_v15 (addf : (⟨S64x8000x4x4, .f32⟩ : BufTy).Contents (Elt F) → (⟨S64x8000x4x4, .f32⟩ : BufTy).Contents (Elt F) → (⟨S64x8000x4x4, .f32⟩ : BufTy).Contents (Elt F)),
    unary main_v15 main_v16 (Host.negf : (⟨S64x8000x4x4, .f32⟩ : BufTy).Contents (Elt F) → (⟨S64x8000x4x4, .f32⟩ : BufTy).Contents (Elt F)),
    unary main_arg2 main_v17 (broadcastInDim S64x8000x1x1 ![0, 1] bcast_S64x8000_S64x8000x1x1_0_1 : (⟨S64x8000, .f32⟩ : BufTy).Contents (Elt F) → (⟨S64x8000x1x1, .f32⟩ : BufTy).Contents (Elt F)),
    unary main_v17 main_v18 (broadcastInDim S64x8000x4x4 ![0, 1, 2, 3] bcast_S64x8000x1x1_S64x8000x4x4_0_1_2_3 : (⟨S64x8000x1x1, .f32⟩ : BufTy).Contents (Elt F) → (⟨S64x8000x4x4, .f32⟩ : BufTy).Contents (Elt F)),
    binary main_v16 main_v18 main_v19 (mulf : (⟨S64x8000x4x4, .f32⟩ : BufTy).Contents (Elt F) → (⟨S64x8000x4x4, .f32⟩ : BufTy).Contents (Elt F) → (⟨S64x8000x4x4, .f32⟩ : BufTy).Contents (Elt F)),
    nullary main_cst_1 (constant S_ .f32 0x00000000#32),
    binary main_v19 main_cst_1 main_v20 ((fun x v => Host.reduceAdd x v reducesTo_S64x8000x4x4_S64x4x4_d1 h_S_) : (⟨S64x8000x4x4, .f32⟩ : BufTy).Contents (Elt F) → (⟨S_, .f32⟩ : BufTy).Contents (Elt F) → (⟨S64x4x4, .f32⟩ : BufTy).Contents (Elt F)),
    nullary main_cst_2 (constant S_ .f32 0x00000000#32),
    binary main_arg2 main_cst_2 main_v21 ((fun x v => Host.reduceAdd x v reducesTo_S64x8000_S64_d1 h_S_) : (⟨S64x8000, .f32⟩ : BufTy).Contents (Elt F) → (⟨S_, .f32⟩ : BufTy).Contents (Elt F) → (⟨S64, .f32⟩ : BufTy).Contents (Elt F)),
    nullary main_cst_3 (constant S_ .f32 0x3F800000#32),
    TRef.unary (.of main_cst_3 : TRef sig ⟨S_, .f32⟩) main_call2.v0 id,
    TRef.unary main_call2.v0 main_call2.v1 (broadcastInDim S64 ![] bcast_S_S64),
    TRef.binary main_call2.v1 (.of main_v21 : TRef sig ⟨S64, .f32⟩) main_call2.v2 maximumf,
    unary main_v22 main_v23 (broadcastInDim S64x1x1 ![0] bcast_S64_S64x1x1_0 : (⟨S64, .f32⟩ : BufTy).Contents (Elt F) → (⟨S64x1x1, .f32⟩ : BufTy).Contents (Elt F)),
    unary main_v23 main_v24 (broadcastInDim S64x4x4 ![0, 1, 2] bcast_S64x1x1_S64x4x4_0_1_2 : (⟨S64x1x1, .f32⟩ : BufTy).Contents (Elt F) → (⟨S64x4x4, .f32⟩ : BufTy).Contents (Elt F)),
    binary main_v20 main_v24 main_v25 (Host.divf : (⟨S64x4x4, .f32⟩ : BufTy).Contents (Elt F) → (⟨S64x4x4, .f32⟩ : BufTy).Contents (Elt F) → (⟨S64x4x4, .f32⟩ : BufTy).Contents (Elt F)) ]

/-- The permutation search on the cost matrix. -/
abbrev opsTail : List (HloOp τ sig (Elt F)) :=
  [ nullary main_v26 (iotaInDim S4 32 0),
    unary main_v26 main_v27 (broadcastInDim S1x4 ![1] bcast_S4_S1x4_1 : (⟨S4, .i32⟩ : BufTy).Contents (Elt F) → (⟨S1x4, .i32⟩ : BufTy).Contents (Elt F)),
    nullary main_c_4 (constantI S_ 32 0#32),
    unary main_c_4 main_v28 (broadcastInDim S1x4 ![] bcast_S_S1x4 : (⟨S_, .i32⟩ : BufTy).Contents (Elt F) → (⟨S1x4, .i32⟩ : BufTy).Contents (Elt F)),
    binary main_v27 main_v28 main_v29 (cmpi .slt : (⟨S1x4, .i32⟩ : BufTy).Contents (Elt F) → (⟨S1x4, .i32⟩ : BufTy).Contents (Elt F) → (⟨S1x4, .i1⟩ : BufTy).Contents (Elt F)),
    nullary main_c_5 (constantI S_ 32 4#32),
    unary main_c_5 main_v30 (broadcastInDim S1x4 ![] bcast_S_S1x4 : (⟨S_, .i32⟩ : BufTy).Contents (Elt F) → (⟨S1x4, .i32⟩ : BufTy).Contents (Elt F)),
    binary main_v27 main_v30 main_v31 (addi : (⟨S1x4, .i32⟩ : BufTy).Contents (Elt F) → (⟨S1x4, .i32⟩ : BufTy).Contents (Elt F) → (⟨S1x4, .i32⟩ : BufTy).Contents (Elt F)),
    ternary main_v29 main_v31 main_v27 main_v32 (select : (⟨S1x4, .i1⟩ : BufTy).Contents (Elt F) → (⟨S1x4, .i32⟩ : BufTy).Contents (Elt F) → (⟨S1x4, .i32⟩ : BufTy).Contents (Elt F) → (⟨S1x4, .i32⟩ : BufTy).Contents (Elt F)),
    nullary main_c_6 (constantI S_ 32 0#32),
    unary main_c_6 main_v33 (broadcastInDim S24x4 ![] bcast_S_S24x4 : (⟨S_, .i32⟩ : BufTy).Contents (Elt F) → (⟨S24x4, .i32⟩ : BufTy).Contents (Elt F)),
    binary main_c main_v33 main_v34 (cmpi .slt : (⟨S24x4, .i32⟩ : BufTy).Contents (Elt F) → (⟨S24x4, .i32⟩ : BufTy).Contents (Elt F) → (⟨S24x4, .i1⟩ : BufTy).Contents (Elt F)),
    nullary main_c_7 (constantI S_ 32 4#32),
    unary main_c_7 main_v35 (broadcastInDim S24x4 ![] bcast_S_S24x4 : (⟨S_, .i32⟩ : BufTy).Contents (Elt F) → (⟨S24x4, .i32⟩ : BufTy).Contents (Elt F)),
    binary main_c main_v35 main_v36 (addi : (⟨S24x4, .i32⟩ : BufTy).Contents (Elt F) → (⟨S24x4, .i32⟩ : BufTy).Contents (Elt F) → (⟨S24x4, .i32⟩ : BufTy).Contents (Elt F)),
    ternary main_v34 main_v36 main_c main_v37 (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F)),
    unary main_v32 main_v38 (broadcastInDim S24x4 ![0, 1] bcast_S1x4_S24x4_0_1 : (⟨S1x4, .i32⟩ : BufTy).Contents (Elt F) → (⟨S24x4, .i32⟩ : BufTy).Contents (Elt F)),
    unary main_v38 main_v39 (broadcastInDim S24x4x1 ![0, 1] bcast_S24x4_S24x4x1_0_1 : (⟨S24x4, .i32⟩ : BufTy).Contents (Elt F) → (⟨S24x4x1, .i32⟩ : BufTy).Contents (Elt F)),
    unary main_v37 main_v40 (broadcastInDim S24x4x1 ![0, 1] bcast_S24x4_S24x4x1_0_1 : (⟨S24x4, .i32⟩ : BufTy).Contents (Elt F) → (⟨S24x4x1, .i32⟩ : BufTy).Contents (Elt F)),
    binary main_v39 main_v40 main_v41 ((fun a b => concatenate S24x4x2 2 [⟨S24x4x1, a⟩, ⟨S24x4x1, b⟩] concatenates_S24x4x1_S24x4x1_S24x4x2_d2) : (⟨S24x4x1, .i32⟩ : BufTy).Contents (Elt F) → (⟨S24x4x1, .i32⟩ : BufTy).Contents (Elt F) → (⟨S24x4x2, .i32⟩ : BufTy).Contents (Elt F)),
    binary main_v25 main_v41 main_v42 ((fun x i => Host.gather gather_S64x4x4_S24x4x2_S64x24x4_0_12_n_n_12_2_6411 x i) : (⟨S64x4x4, .f32⟩ : BufTy).Contents (Elt F) → (⟨S24x4x2, .i32⟩ : BufTy).Contents (Elt F) → (⟨S64x24x4, .f32⟩ : BufTy).Contents (Elt F)),
    nullary main_cst_8 (constant S_ .f32 0x00000000#32),
    binary main_v42 main_cst_8 main_v43 ((fun x v => Host.reduceAdd x v reducesTo_S64x24x4_S64x24_d2 h_S_) : (⟨S64x24x4, .f32⟩ : BufTy).Contents (Elt F) → (⟨S_, .f32⟩ : BufTy).Contents (Elt F) → (⟨S64x24, .f32⟩ : BufTy).Contents (Elt F)),
    nullary main_cst_9 (constant S_ .f32 0x40800000#32),
    unary main_cst_9 main_v44 (broadcastInDim S64x24 ![] bcast_S_S64x24 : (⟨S_, .f32⟩ : BufTy).Contents (Elt F) → (⟨S64x24, .f32⟩ : BufTy).Contents (Elt F)),
    binary main_v43 main_v44 main_v45 (Host.divf : (⟨S64x24, .f32⟩ : BufTy).Contents (Elt F) → (⟨S64x24, .f32⟩ : BufTy).Contents (Elt F) → (⟨S64x24, .f32⟩ : BufTy).Contents (Elt F)),
    nullary main_cst_10 (constant S_ .f32 0x7F800000#32),
    binary main_v45 main_cst_10 main_v46 ((fun x v => Host.reduce FloatOps.minimumf x v reducesTo_S64x24_S64_d1 h_S_) : (⟨S64x24, .f32⟩ : BufTy).Contents (Elt F) → (⟨S_, .f32⟩ : BufTy).Contents (Elt F) → (⟨S64, .f32⟩ : BufTy).Contents (Elt F)),
    nullary main_cst_11 (constant S_ .f32 0x00000000#32),
    binary main_v46 main_cst_11 main_v47 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_12 (constant S_ .f32 0x42800000#32),
    binary main_v47 main_cst_12 main_v48 (Host.divf : (⟨S_, .f32⟩ : BufTy).Contents (Elt F) → (⟨S_, .f32⟩ : BufTy).Contents (Elt F) → (⟨S_, .f32⟩ : BufTy).Contents (Elt F)) ]

/-- Two lines in a row fold one after the other. -/
private theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

theorem scopedRefs_eq : (Finset.univ.filter fun b : Ref sig .tc => b.isScoped) = ∅ := by decide
theorem scopedSems_eq : (Finset.univ.filter fun sm : SemLoc sig => sm.isScoped .tc) = ∅ := by decide

theorem ops_sub : (opsCost ++ opsTail : List (HloOp τ sig (Elt F))).Forall fun op => op.bufs ⊆ tcRefs τ sig :=
  ⟨nullary_bufs_sub .., unary_bufs_sub .., unary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., binary_bufs_sub .., binary_bufs_sub .., unary_bufs_sub .., unary_bufs_sub .., unary_bufs_sub .., binary_bufs_sub .., nullary_bufs_sub .., binary_bufs_sub .., nullary_bufs_sub .., binary_bufs_sub .., nullary_bufs_sub .., unary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., binary_bufs_sub ..⟩

set_option maxRecDepth 8192 in
set_option maxHeartbeats 8000000 in
/-- @main is that straight line: the three functions' bodies unfolded at their calls and the two windows joined,
    both sides are one chain of steps once sequencing is reassociated. -/
theorem main_eq (c : Dev nD) : main (F := F) c = seq (opsCost ++ opsTail) := by
  rw [seq_append]
  simp only [main, main_part0, main_part1, fn_log_sigmoid.body, fn_softplus.body, fn_clip.body, seq, bind_assoc, pure_bind]

local macro "results_rw" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)))

attribute [local irreducible] Host.reduce Host.reduceAdd Host.gather in
set_option maxRecDepth 8192 in
set_option maxHeartbeats 4000000 in
/-- The permutation search's 32 operations, from any contents: the result buffer holds `tail` of the table buffer
    and the cost buffer. The two programs' shapes are the same literals, their shape facts proofs of the same
    propositions and their gather records the same fields, so the composed term is `tail`'s by computation. -/
theorem tail_result (W : Valuation τ sig (Elt Ideal)) :
    after (opsTail (F := Ideal)) W (main_v48 : DevRef τ sig)
      = Cert.Pit.tail (W (main_c : DevRef τ sig)) (W (main_v25 : DevRef τ sig)) := by
  after_results_simp
  results_rw
  rfl

attribute [local irreducible] Host.reduce Host.reduceAdd Host.gather in
set_option maxRecDepth 8192 in
set_option maxHeartbeats 4000000 in
/-- The first 64 operations: the cost buffer holds `refCost` of the three arguments (each call's buffers carry
    the callee's values; the transports along the buffers' types are the identity at these literal references). -/
theorem cost_result (V : Valuation τ sig (Elt Ideal)) :
    after (opsCost (F := Ideal)) V (main_v25 : DevRef τ sig)
      = Cert.Pit.refCost (V (main_arg0 : DevRef τ sig)) (V (main_arg1 : DevRef τ sig)) (V (main_arg2 : DevRef τ sig)) := by
  after_results_simp
  rfl

/-- The two programs' permutation tables hold the same 96 words. -/
theorem lit_eq : ∀ k : Fin 96, Cert.ReferenceIdeal.lit0 k = Cert.KernelIdeal.lit0 k := by decide

theorem table_eq : (fun i => Cert.ReferenceIdeal.lit0 (S24x4.rowMajor i)) = Cert.Pit.permTable :=
  funext fun i => lit_eq _

set_option maxHeartbeats 4000000 in
theorem table_result (V : Valuation τ sig (Elt Ideal)) :
    after (opsCost (F := Ideal)) V (main_c : DevRef τ sig) = Cert.Pit.permTable := by
  refine Eq.trans ?_ table_eq
  after_results_simp
  rfl

set_option maxHeartbeats 4000000 in
theorem arg0_result (V : Valuation τ sig (Elt Ideal)) :
    after (opsCost ++ opsTail) V (main_arg0 : DevRef τ sig) = V (main_arg0 : DevRef τ sig) := by
  rw [after_app]; after_results_simp
set_option maxHeartbeats 4000000 in
theorem arg1_result (V : Valuation τ sig (Elt Ideal)) :
    after (opsCost ++ opsTail) V (main_arg1 : DevRef τ sig) = V (main_arg1 : DevRef τ sig) := by
  rw [after_app]; after_results_simp
set_option maxHeartbeats 4000000 in
theorem arg2_result (V : Valuation τ sig (Elt Ideal)) :
    after (opsCost ++ opsTail) V (main_arg2 : DevRef τ sig) = V (main_arg2 : DevRef τ sig) := by
  rw [after_app]; after_results_simp

/-- The result buffer after the whole line: the permutation search of the cost matrix of the arguments. -/
theorem out_result (V : Valuation τ sig (Elt Ideal)) :
    after (opsCost ++ opsTail) V (main_v48 : DevRef τ sig)
      = Cert.Pit.tail Cert.Pit.permTable
          (Cert.Pit.refCost (V (main_arg0 : DevRef τ sig)) (V (main_arg1 : DevRef τ sig)) (V (main_arg2 : DevRef τ sig))) := by
  rw [after_app, tail_result, table_result, cost_result]

/-- Every weakly fair execution of the reference terminates with its result at the permutation search of its cost matrix, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v48)
          = Cert.Pit.tail Cert.Pit.permTable (Cert.Pit.refCost (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v48).trans (out_result _),
      (h c main_arg0).trans (arg0_result _),
      (h c main_arg1).trans (arg1_result _),
      (h c main_arg2).trans (arg2_result _)⟩)
    (run_seq scopedRefs_eq scopedSems_eq defs main (fun _ => opsCost ++ opsTail) main_eq (fun _ => ops_sub) m ρ)

end Cert.Pit.RefRun
end
-- ==== Proof.KernelBlock.lean ====
/-
  What one grid step of the kernel leaves in its [8, 4, 4] output block, entry by entry: the block is written in four
  row stores (one per class i), each row the four per-class-pair costs of the step's eight batch rows; entry (b, i, j)
  is the kernel's three-sum form of the masked cost of logit class i against target class j on batch row b.

  The road: the body's two softplus chains are the log-sigmoid of the logit and of the negated logit, element by element
  (their guard compares a number with itself, so it never fires on the extended reals); the layout steps (a column cut out
  of a [8, 8000, 4] block, the recasts between [8, 8000, 1] and [8, 8000], [8] and [8, 1], [8, 4] and [8, 1, 4], the
  broadcast of the denominator column, the four value columns laid side by side) each read one element of their operand;
  a lane sum is the sum over the 8000 frames; so each of a row store's four values is 0 − ((3/2 · Σ P·T + Σ N) − Σ N·T) with
  P, N the masked log-sigmoid columns of the store's class and T a target column, divided by max(1, Σ mask); and entry
  (b, i, j) of the block lies in row store i's rectangle and in no later store's.
-/
import proofs.«164727_j77919296684577_1_alg».proof.Proof.Gen.KernelIdeal.Frame
import proofs.«164727_j77919296684577_1_alg».proof.Proof.PitSpec
import Idealize.ShloMosaic.Lib.ValueIdx
import Idealize.ShloMosaic.Lib.ValueLayout
import Idealize.ShloMosaic.Lib.Pipeline.Value
import Idealize.ShloMosaic.PureOps.Ideal.Laws

noncomputable section

namespace Cert.Pit

open Idealize.ShloMosaic Idealize.ShloMosaic.ValueIdx Cert.KernelIdeal Cert.KernelIdeal.Gen

/-- On the extended reals, zero minus a number is its negative. -/
theorem zsub (a : EReal) : 0 - a = -a := by rw [sub_eq_add_neg, zero_add]

/-- The stable softplus as the body spells it at one element, guard included: the guard compares a number with itself
    for inequality, so it never fires. -/
theorem softplus_body (y : EReal) :
    Scalar.select (Ideal.cmp .one (y - 0) (y - 0)) (y + 0) (max y 0 + Ideal.log1p (Ideal.exp (0 - max (y - 0) (-(y - 0)))))
      = softplus y := by
  have hc : Ideal.cmp .one (y - 0) (y - 0) = 0#1 := by simp [Ideal.cmp]
  rw [hc, select_zero, sub_zero]
  unfold softplus
  rw [sub_eq_add_neg, zero_add]

/-- The first softplus chain with its outer negation: the log-sigmoid of the logit, element by element. -/
theorem pay2_apply (x : Vec Ideal S8x8000x4 .f32) (y : S8x8000x4.Idx) :
    k0_pay2 (F := Ideal) x y = lsig (x y) := by
  unfold k0_pay2
  show Ideal.ofBits .f32 0x00000000#32 - Scalar.select
      (Ideal.cmp .one ((Ideal.ofBits .f32 0x00000000#32 - x y) - Ideal.ofBits .f32 0x00000000#32)
        ((Ideal.ofBits .f32 0x00000000#32 - x y) - Ideal.ofBits .f32 0x00000000#32))
      ((Ideal.ofBits .f32 0x00000000#32 - x y) + Ideal.ofBits .f32 0x00000000#32)
      (max (Ideal.ofBits .f32 0x00000000#32 - x y) (Ideal.ofBits .f32 0x00000000#32)
        + Ideal.log1p (Ideal.exp (Ideal.ofBits .f32 0x00000000#32
            - max ((Ideal.ofBits .f32 0x00000000#32 - x y) - Ideal.ofBits .f32 0x00000000#32)
                (-((Ideal.ofBits .f32 0x00000000#32 - x y) - Ideal.ofBits .f32 0x00000000#32)))))
    = lsig (x y)
  rw [Ideal.ofBits_zero_f32, softplus_body, zsub, zsub]
  rfl

/-- The second softplus chain of the body, before its outer negation: softplus of the logit. -/
theorem pay3_apply (x : Vec Ideal S8x8000x4 .f32) (y : S8x8000x4.Idx) :
    k0_pay3 (F := Ideal) x y = softplus (x y) := by
  unfold k0_pay3
  show Scalar.select
      (Ideal.cmp .one ((Ideal.ofBits .f32 0x00000000#32 - (Ideal.ofBits .f32 0x00000000#32 - x y)) - Ideal.ofBits .f32 0x00000000#32)
        ((Ideal.ofBits .f32 0x00000000#32 - (Ideal.ofBits .f32 0x00000000#32 - x y)) - Ideal.ofBits .f32 0x00000000#32))
      ((Ideal.ofBits .f32 0x00000000#32 - (Ideal.ofBits .f32 0x00000000#32 - x y)) + Ideal.ofBits .f32 0x00000000#32)
      (max (Ideal.ofBits .f32 0x00000000#32 - (Ideal.ofBits .f32 0x00000000#32 - x y)) (Ideal.ofBits .f32 0x00000000#32)
        + Ideal.log1p (Ideal.exp (Ideal.ofBits .f32 0x00000000#32
            - max ((Ideal.ofBits .f32 0x00000000#32 - (Ideal.ofBits .f32 0x00000000#32 - x y)) - Ideal.ofBits .f32 0x00000000#32)
                (-((Ideal.ofBits .f32 0x00000000#32 - (Ideal.ofBits .f32 0x00000000#32 - x y)) - Ideal.ofBits .f32 0x00000000#32)))))
    = softplus (x y)
  rw [Ideal.ofBits_zero_f32, softplus_body, zsub, zsub, neg_neg]

/-- With its outer negation (zero minus it): the log-sigmoid of the negated logit. -/
theorem pay4_apply (x : Vec Ideal S8x8000x4 .f32) (y : S8x8000x4.Idx) :
    k0_pay4 (F := Ideal) (k0_pay3 (F := Ideal) x) (Scalar.ofBits .f32 0x00000000#32) y = lsig (-(x y)) := by
  unfold k0_pay4
  show Ideal.ofBits .f32 0x00000000#32 - k0_pay3 (F := Ideal) x y = lsig (-(x y))
  rw [pay3_apply, Ideal.ofBits_zero_f32, zsub]
  unfold lsig
  rw [neg_neg]

/-- The mask block [8, 8000, 1] recast to [8, 8000]: entry (b, τ) is the block's (b, τ, 0). -/
theorem mask_apply (x2 : Vec Ideal S8x8000x1 .f32) (b : Fin 8) (τ : Fin 8000) :
    k0_pay1 (F := Ideal) x2 (ix2 b τ) = x2 (ix3 b τ 0) := by
  unfold k0_pay1
  rw [shapeCast_self]
  refine shapeCast_apply _ _ (ix2 b τ) (ix3 b τ 0) ?_
  rw [Shape.rowMajor_val_three, Shape.rowMajor_val_two]
  show ((b.val * 8000 + τ.val) * 1 + 0) = b.val * 8000 + τ.val
  omega

/-- Column c of a [8, 8000, 4] block, cut out and recast to [8, 8000]: entry (b, τ) is the block's (b, τ, c). -/
theorem col_apply (o : Nat) (v : FVec Ideal S8x8000x4 .f32) (h : S8x8000x4.Slices ![0, 0, o] S8x8000x1)
    (b : Fin 8) (τ : Fin 8000) (c : Fin 4) (hc : c.val = o) :
    shapeCast S8x8000 (extractStridedSlice S8x8000x1 ![0, 0, o] v h) shapeCasts_S8x8000x1_S8x8000 (ix2 b τ) = v (ix3 b τ c) := by
  refine (shapeCast_apply _ _ (ix2 b τ) (ix3 b τ (0 : Fin 1)) ?_).trans ?_
  · rw [Shape.rowMajor_val_three, Shape.rowMajor_val_two]
    show ((b.val * 8000 + τ.val) * 1 + 0) = b.val * 8000 + τ.val
    omega
  · refine extractStridedSlice_apply _ _ _ (ix3 b τ (0 : Fin 1)) (ix3 b τ c) ?_
    intro a
    match a with
    | ⟨0, _⟩ => show b.val = 0 + b.val; omega
    | ⟨1, _⟩ => show τ.val = 0 + τ.val; omega
    | ⟨2, _⟩ => show c.val = o + 0; omega

/-- A lane sum [8, 8000] → [8] at row b is the sum over the 8000 frames of the row's entries. -/
theorem rowsum_apply (v : FVec Ideal S8x8000 .f32) (b : Fin 8) :
    multiReduction .add [1] S8 v 0x00000000#32 reduces_S8x8000_S8 (.inl rfl) rfl (ix1 b) = ∑ τ : Fin 8000, v (ix2 b τ) := by
  refine (Ideal.multiReduction_add_single v 0x00000000#32 reduces_S8x8000_S8 (.inl rfl) rfl (ix1 b)).trans ?_
  show ∑ k : Fin 8000, v (reduces_S8x8000_S8.lift (ix1 b) k) = _
  refine Finset.sum_congr rfl fun τ _ => congrArg v ?_
  funext a
  match a with
  | ⟨0, _⟩ => rfl
  | ⟨1, _⟩ => rfl

/-- A vector [8] recast to a column [8, 1]: entry (b, 0) is the vector's b. -/
theorem column_apply (v : FVec Ideal S8 .f32) (b : Fin 8) (u : Fin 1) :
    shapeCast S8x1 v shapeCasts_S8_S8x1 (ix2 b u) = v (ix1 b) := by
  refine shapeCast_apply _ _ (ix2 b u) (ix1 b) ?_
  rw [Shape.rowMajor_val_one, Shape.rowMajor_val_two]
  show b.val = b.val * 1 + u.val
  omega

/-- A column [8, 1] broadcast along the four classes: entry (b, j) is the column's (b, 0). -/
theorem bcast_apply (v : FVec Ideal S8x1 .f32) (b : Fin 8) (j : Fin 4) :
    broadcastTo S8x4 v broadcasts_S8x1_S8x4 (ix2 b j) = v (ix2 b (0 : Fin 1)) := by
  refine broadcastTo_apply _ _ (ix2 b j) (ix2 b (0 : Fin 1)) ?_
  intro a
  match a with
  | ⟨0, _⟩ => rfl
  | ⟨1, _⟩ => rfl

/-- A matrix [8, 4] recast to [8, 1, 4]: entry (b, 0, j) is the matrix's (b, j). -/
theorem row3_apply (v : FVec Ideal S8x4 .f32) (b : Fin 8) (u : Fin 1) (j : Fin 4) :
    shapeCast S8x1x4 v shapeCasts_S8x4_S8x1x4 (ix3 b u j) = v (ix2 b j) := by
  refine shapeCast_apply _ _ (ix3 b u j) (ix2 b j) ?_
  rw [Shape.rowMajor_val_three, Shape.rowMajor_val_two]
  show b.val * 4 + j.val = (b.val * 1 + u.val) * 4 + j.val
  omega

/-- Four columns [8, 1] laid side by side into [8, 4]: entry (b, j) is column j's (b, 0). -/
theorem concat4_apply (c0 c1 c2 c3 : FVec Ideal S8x1 .f32) (b : Fin 8) (j : Fin 4) :
    concatenate S8x4 1 [⟨S8x1, c0⟩, ⟨S8x1, c1⟩, ⟨S8x1, c2⟩, ⟨S8x1, c3⟩] concatenates_S8x1_S8x1_S8x1_S8x1_S8x4_d1 (ix2 b j)
      = (match j with | 0 => c0 | 1 => c1 | 2 => c2 | 3 => c3) (ix2 b (0 : Fin 1)) := by
  fin_cases j
  · refine concatenate_apply_piece (t := S8x4) (1 : Fin 2) [⟨S8x1, c0⟩, ⟨S8x1, c1⟩, ⟨S8x1, c2⟩, ⟨S8x1, c3⟩] concatenates_S8x1_S8x1_S8x1_S8x1_S8x4_d1
      (ix2 b (0 : Fin 4)) 0 (by show 0 < 4; omega) S8x1 c0 rfl rfl 0 rfl (ix2 b (0 : Fin 1)) ?_ rfl
    intro a ha
    match a, ha with
    | ⟨0, _⟩, _ => rfl
    | ⟨1, _⟩, ha => exact absurd rfl ha
  · refine concatenate_apply_piece (t := S8x4) (1 : Fin 2) [⟨S8x1, c0⟩, ⟨S8x1, c1⟩, ⟨S8x1, c2⟩, ⟨S8x1, c3⟩] concatenates_S8x1_S8x1_S8x1_S8x1_S8x4_d1
      (ix2 b (1 : Fin 4)) 1 (by show 1 < 4; omega) S8x1 c1 rfl rfl 1 rfl (ix2 b (0 : Fin 1)) ?_ rfl
    intro a ha
    match a, ha with
    | ⟨0, _⟩, _ => rfl
    | ⟨1, _⟩, ha => exact absurd rfl ha
  · refine concatenate_apply_piece (t := S8x4) (1 : Fin 2) [⟨S8x1, c0⟩, ⟨S8x1, c1⟩, ⟨S8x1, c2⟩, ⟨S8x1, c3⟩] concatenates_S8x1_S8x1_S8x1_S8x1_S8x4_d1
      (ix2 b (2 : Fin 4)) 2 (by show 2 < 4; omega) S8x1 c2 rfl rfl 2 rfl (ix2 b (0 : Fin 1)) ?_ rfl
    intro a ha
    match a, ha with
    | ⟨0, _⟩, _ => rfl
    | ⟨1, _⟩, ha => exact absurd rfl ha
  · refine concatenate_apply_piece (t := S8x4) (1 : Fin 2) [⟨S8x1, c0⟩, ⟨S8x1, c1⟩, ⟨S8x1, c2⟩, ⟨S8x1, c3⟩] concatenates_S8x1_S8x1_S8x1_S8x1_S8x4_d1
      (ix2 b (3 : Fin 4)) 3 (by show 3 < 4; omega) S8x1 c3 rfl rfl 3 rfl (ix2 b (0 : Fin 1)) ?_ rfl
    intro a ha
    match a, ha with
    | ⟨0, _⟩, _ => rfl
    | ⟨1, _⟩, ha => exact absurd rfl ha

/-- What one row store holds at (b, 0, j): value j of the four at row b, divided by the denominator at row b. -/
theorem rowstore_apply (v0 v1 v2 v3 d : FVec Ideal S8 .f32) (b : Fin 8) (j : Fin 4) :
    shapeCast S8x1x4
        (divf
          (concatenate S8x4 1 [⟨S8x1, shapeCast S8x1 v0 shapeCasts_S8_S8x1⟩, ⟨S8x1, shapeCast S8x1 v1 shapeCasts_S8_S8x1⟩,
            ⟨S8x1, shapeCast S8x1 v2 shapeCasts_S8_S8x1⟩, ⟨S8x1, shapeCast S8x1 v3 shapeCasts_S8_S8x1⟩]
            concatenates_S8x1_S8x1_S8x1_S8x1_S8x4_d1)
          (broadcastTo S8x4 (shapeCast S8x1 d shapeCasts_S8_S8x1) broadcasts_S8x1_S8x4))
        shapeCasts_S8x4_S8x1x4 (ix3 b (0 : Fin 1) j)
      = Ideal.div ((match j with | 0 => v0 | 1 => v1 | 2 => v2 | 3 => v3) (ix1 b)) (d (ix1 b)) := by
  refine (row3_apply _ b 0 j).trans ?_
  refine (divf_apply _ _ (ix2 b j)).trans ?_
  rw [concat4_apply, bcast_apply, column_apply]
  fin_cases j <;> exact congrArg (fun z => Ideal.div z (d (ix1 b))) (column_apply _ b 0)

/-! Row i of the [8, 4, 4] block is the rectangle of row store i; the other rows lie outside it. -/
theorem row0_emb (b : Fin 8) (j : Fin 4) : (ix3 b (0 : Fin 4) j : S8x4x4.Idx) = r0_2.emb (ix3 b (0 : Fin 1) j) := by
  funext a; apply Fin.ext
  match a with
  | ⟨0, _⟩ => show b.val = 0 + 1 * b.val; omega
  | ⟨1, _⟩ => show 0 = 0 + 1 * 0; omega
  | ⟨2, _⟩ => show j.val = 0 + 1 * j.val; omega

theorem row1_emb (b : Fin 8) (j : Fin 4) : (ix3 b (1 : Fin 4) j : S8x4x4.Idx) = r0_3.emb (ix3 b (0 : Fin 1) j) := by
  funext a; apply Fin.ext
  match a with
  | ⟨0, _⟩ => show b.val = 0 + 1 * b.val; omega
  | ⟨1, _⟩ => show 1 = 1 + 1 * 0; omega
  | ⟨2, _⟩ => show j.val = 0 + 1 * j.val; omega

theorem row2_emb (b : Fin 8) (j : Fin 4) : (ix3 b (2 : Fin 4) j : S8x4x4.Idx) = r0_4.emb (ix3 b (0 : Fin 1) j) := by
  funext a; apply Fin.ext
  match a with
  | ⟨0, _⟩ => show b.val = 0 + 1 * b.val; omega
  | ⟨1, _⟩ => show 2 = 2 + 1 * 0; omega
  | ⟨2, _⟩ => show j.val = 0 + 1 * j.val; omega

theorem row3_emb (b : Fin 8) (j : Fin 4) : (ix3 b (3 : Fin 4) j : S8x4x4.Idx) = r0_5.emb (ix3 b (0 : Fin 1) j) := by
  funext a; apply Fin.ext
  match a with
  | ⟨0, _⟩ => show b.val = 0 + 1 * b.val; omega
  | ⟨1, _⟩ => show 3 = 3 + 1 * 0; omega
  | ⟨2, _⟩ => show j.val = 0 + 1 * j.val; omega

theorem not_row1 (b : Fin 8) (i j : Fin 4) (hne : i.val ≠ 1) : (ix3 b i j : S8x4x4.Idx) ∉ r0_3.set := by
  intro hm
  have h := (Rect.mem_set_unit.mp hm) (1 : Fin 3)
  have h1 : 1 ≤ i.val := h.1
  have h2 : i.val < 1 + 1 := h.2
  omega

theorem not_row2 (b : Fin 8) (i j : Fin 4) (hne : i.val ≠ 2) : (ix3 b i j : S8x4x4.Idx) ∉ r0_4.set := by
  intro hm
  have h := (Rect.mem_set_unit.mp hm) (1 : Fin 3)
  have h1 : 2 ≤ i.val := h.1
  have h2 : i.val < 2 + 1 := h.2
  omega

theorem not_row3 (b : Fin 8) (i j : Fin 4) (hne : i.val ≠ 3) : (ix3 b i j : S8x4x4.Idx) ∉ r0_5.set := by
  intro hm
  have h := (Rect.mem_set_unit.mp hm) (1 : Fin 3)
  have h1 : 3 ≤ i.val := h.1
  have h2 : i.val < 3 + 1 := h.2
  omega

/-- The block after the four row stores, entry (b, i, j): row store i's payload at (b, 0, j). -/
theorem canon_rows (p0 p1 p2 p3 : Vec Ideal S8x1x4 .f32) (b : Fin 8) (i j : Fin 4) :
    View.canon (Val := Elt Ideal) [(⟨r0_5, p3⟩ : View.Piece (Elt Ideal) S8x4x4 .f32), ⟨r0_4, p2⟩, ⟨r0_3, p1⟩, ⟨r0_2, p0⟩] (ix3 b i j)
      = (match i with | 0 => p0 | 1 => p1 | 2 => p2 | 3 => p3) (ix3 b (0 : Fin 1) j) := by
  fin_cases i
  · refine (View.canon_cons_of_not_mem (⟨r0_5, p3⟩ : View.Piece (Elt Ideal) S8x4x4 .f32) [⟨r0_4, p2⟩, ⟨r0_3, p1⟩, ⟨r0_2, p0⟩] (not_row3 b 0 j (by decide))).trans ?_
    refine (View.canon_cons_of_not_mem (⟨r0_4, p2⟩ : View.Piece (Elt Ideal) S8x4x4 .f32) [⟨r0_3, p1⟩, ⟨r0_2, p0⟩] (not_row2 b 0 j (by decide))).trans ?_
    refine (View.canon_cons_of_not_mem (⟨r0_3, p1⟩ : View.Piece (Elt Ideal) S8x4x4 .f32) [⟨r0_2, p0⟩] (not_row1 b 0 j (by decide))).trans ?_
    rw [row0_emb]
    exact View.canon_cons_emb r0_2 p0 [] _
  · refine (View.canon_cons_of_not_mem (⟨r0_5, p3⟩ : View.Piece (Elt Ideal) S8x4x4 .f32) [⟨r0_4, p2⟩, ⟨r0_3, p1⟩, ⟨r0_2, p0⟩] (not_row3 b 1 j (by decide))).trans ?_
    refine (View.canon_cons_of_not_mem (⟨r0_4, p2⟩ : View.Piece (Elt Ideal) S8x4x4 .f32) [⟨r0_3, p1⟩, ⟨r0_2, p0⟩] (not_row2 b 1 j (by decide))).trans ?_
    rw [row1_emb]
    exact View.canon_cons_emb r0_3 p1 [⟨r0_2, p0⟩] _
  · refine (View.canon_cons_of_not_mem (⟨r0_5, p3⟩ : View.Piece (Elt Ideal) S8x4x4 .f32) [⟨r0_4, p2⟩, ⟨r0_3, p1⟩, ⟨r0_2, p0⟩] (not_row3 b 2 j (by decide))).trans ?_
    rw [row2_emb]
    exact View.canon_cons_emb r0_4 p2 [⟨r0_3, p1⟩, ⟨r0_2, p0⟩] _
  · show View.canon _ (ix3 b (3 : Fin 4) j) = _
    rw [row3_emb]
    exact View.canon_cons_emb r0_5 p3 [⟨r0_4, p2⟩, ⟨r0_3, p1⟩, ⟨r0_2, p0⟩] _

/-- The body's three-sum value per batch row, from the masked log-sigmoid columns P (of the logit) and N (of the negated
    logit) and a target column T: 0 − ((3/2 · Σ P·T + Σ N) − Σ N·T). -/
abbrev val3 (P N T : FVec Ideal S8x8000 .f32) : FVec Ideal S8 .f32 :=
  subf (broadcast S8 (Scalar.ofBits .f32 0x00000000#32))
    (subf
      (addf
        (mulf (broadcast S8 (Scalar.ofBits .f32 0x3FC00000#32))
          (multiReduction .add [1] S8 (mulf P T) 0x00000000#32 reduces_S8x8000_S8 (.inl rfl) rfl))
        (multiReduction .add [1] S8 N 0x00000000#32 reduces_S8x8000_S8 (.inl rfl) rfl))
      (multiReduction .add [1] S8 (mulf N T) 0x00000000#32 reduces_S8x8000_S8 (.inl rfl) rfl))

/-- At row b it is the three sums over the frames. -/
theorem val3_apply (P N T : FVec Ideal S8x8000 .f32) (b : Fin 8) :
    val3 P N T (ix1 b)
      = 0 - ((w15 * (∑ τ : Fin 8000, P (ix2 b τ) * T (ix2 b τ)) + ∑ τ : Fin 8000, N (ix2 b τ))
              - ∑ τ : Fin 8000, N (ix2 b τ) * T (ix2 b τ)) := by
  show Ideal.ofBits .f32 0x00000000#32
      - ((Ideal.ofBits .f32 0x3FC00000#32
            * multiReduction .add [1] S8 (mulf P T) 0x00000000#32 reduces_S8x8000_S8 (.inl rfl) rfl (ix1 b)
          + multiReduction .add [1] S8 N 0x00000000#32 reduces_S8x8000_S8 (.inl rfl) rfl (ix1 b))
        - multiReduction .add [1] S8 (mulf N T) 0x00000000#32 reduces_S8x8000_S8 (.inl rfl) rfl (ix1 b)) = _
  rw [rowsum_apply, rowsum_apply, rowsum_apply, Ideal.ofBits_zero_f32]
  rfl

/-- The value over the denominator is the specification's entry, once the three columns and the denominator are read
    along the frames of batch row b. -/
theorem entry_of (P N T : FVec Ideal S8x8000 .f32) (D : FVec Ideal S8 .f32) (b : Fin 8) (xi tj mk : Fin 8000 → EReal)
    (hP : ∀ τ, P (ix2 b τ) = lsig (xi τ) * mk τ) (hN : ∀ τ, N (ix2 b τ) = lsig (-(xi τ)) * mk τ)
    (hT : ∀ τ, T (ix2 b τ) = tj τ) (hD : D (ix1 b) = max one32 (∑ τ : Fin 8000, mk τ)) :
    Ideal.div (val3 P N T (ix1 b)) (D (ix1 b)) = entryK xi tj mk := by
  rw [val3_apply, hD]
  unfold entryK
  simp only [hP, hN, hT]

/-- The denominator: the row's count of valid frames, clipped below at one. -/
theorem denom_apply (x2 : Vec Ideal S8x8000x1 .f32) (b : Fin 8) :
    k0_pay5 (F := Ideal) (k0_pay1 (F := Ideal) x2) (ix1 b) = max one32 (∑ τ : Fin 8000, x2 (ix3 b τ 0)) := by
  unfold k0_pay5
  show max (Ideal.ofBits .f32 0x3F800000#32)
      (multiReduction .add [1] S8 (k0_pay1 (F := Ideal) x2) 0x00000000#32 reduces_S8x8000_S8 (.inl rfl) rfl (ix1 b)) = _
  rw [rowsum_apply]
  exact congrArg (max one32) (Finset.sum_congr rfl fun τ _ => mask_apply x2 b τ)

/-- Column c of a [8, 8000, 4] block, masked: entry (b, τ) is the block's (b, τ, c) times the mask's (b, τ). -/
theorem maskcol_apply (o : Nat) (v : FVec Ideal S8x8000x4 .f32) (h : S8x8000x4.Slices ![0, 0, o] S8x8000x1)
    (x2 : Vec Ideal S8x8000x1 .f32) (b : Fin 8) (τ : Fin 8000) (c : Fin 4) (hc : c.val = o) :
    mulf (shapeCast S8x8000 (extractStridedSlice S8x8000x1 ![0, 0, o] v h) shapeCasts_S8x8000x1_S8x8000) (k0_pay1 (F := Ideal) x2) (ix2 b τ)
      = v (ix3 b τ c) * x2 (ix3 b τ 0) := by
  refine (mulf_apply _ _ (ix2 b τ)).trans ?_
  rw [col_apply o v h b τ c hc, mask_apply]

/-! The masked log-sigmoid columns, class by class: entry (b, τ) of the column of class i is the log-sigmoid of the
    logit (or of the negated logit) of class i at frame τ of row b, times the mask there. -/
theorem lsp0_apply (x0 : Vec Ideal S8x8000x4 .f32) (x2 : Vec Ideal S8x8000x1 .f32) (b : Fin 8) (τ : Fin 8000) :
    (k0_pay6 (F := Ideal) (k0_pay1 (F := Ideal) x2) (k0_pay2 (F := Ideal) x0)) (ix2 b τ) = lsig (x0 (ix3 b τ 0)) * x2 (ix3 b τ 0) := by
  unfold k0_pay6
  refine (maskcol_apply 0 _ _ x2 b τ 0 rfl).trans ?_
  rw [pay2_apply]
theorem lsn0_apply (x0 : Vec Ideal S8x8000x4 .f32) (x2 : Vec Ideal S8x8000x1 .f32) (b : Fin 8) (τ : Fin 8000) :
    (k0_pay7 (F := Ideal) (k0_pay1 (F := Ideal) x2) (k0_pay3 (F := Ideal) x0) (Scalar.ofBits .f32 0x00000000#32)) (ix2 b τ) = lsig (-(x0 (ix3 b τ 0))) * x2 (ix3 b τ 0) := by
  unfold k0_pay7
  refine (maskcol_apply 0 _ _ x2 b τ 0 rfl).trans ?_
  rw [pay4_apply]
theorem lsp1_apply (x0 : Vec Ideal S8x8000x4 .f32) (x2 : Vec Ideal S8x8000x1 .f32) (b : Fin 8) (τ : Fin 8000) :
    (k0_pay13 (F := Ideal) (k0_pay1 (F := Ideal) x2) (k0_pay2 (F := Ideal) x0)) (ix2 b τ) = lsig (x0 (ix3 b τ 1)) * x2 (ix3 b τ 0) := by
  unfold k0_pay13
  refine (maskcol_apply 1 _ _ x2 b τ 1 rfl).trans ?_
  rw [pay2_apply]
theorem lsn1_apply (x0 : Vec Ideal S8x8000x4 .f32) (x2 : Vec Ideal S8x8000x1 .f32) (b : Fin 8) (τ : Fin 8000) :
    (k0_pay14 (F := Ideal) (k0_pay1 (F := Ideal) x2) (k0_pay4 (F := Ideal) (k0_pay3 (F := Ideal) x0) (Scalar.ofBits .f32 0x00000000#32))) (ix2 b τ) = lsig (-(x0 (ix3 b τ 1))) * x2 (ix3 b τ 0) := by
  unfold k0_pay14
  refine (maskcol_apply 1 _ _ x2 b τ 1 rfl).trans ?_
  rw [pay4_apply]
theorem lsp2_apply (x0 : Vec Ideal S8x8000x4 .f32) (x2 : Vec Ideal S8x8000x1 .f32) (b : Fin 8) (τ : Fin 8000) :
    (k0_pay19 (F := Ideal) (k0_pay1 (F := Ideal) x2) (k0_pay2 (F := Ideal) x0)) (ix2 b τ) = lsig (x0 (ix3 b τ 2)) * x2 (ix3 b τ 0) := by
  unfold k0_pay19
  refine (maskcol_apply 2 _ _ x2 b τ 2 rfl).trans ?_
  rw [pay2_apply]
theorem lsn2_apply (x0 : Vec Ideal S8x8000x4 .f32) (x2 : Vec Ideal S8x8000x1 .f32) (b : Fin 8) (τ : Fin 8000) :
    (k0_pay20 (F := Ideal) (k0_pay1 (F := Ideal) x2) (k0_pay4 (F := Ideal) (k0_pay3 (F := Ideal) x0) (Scalar.ofBits .f32 0x00000000#32))) (ix2 b τ) = lsig (-(x0 (ix3 b τ 2))) * x2 (ix3 b τ 0) := by
  unfold k0_pay20
  refine (maskcol_apply 2 _ _ x2 b τ 2 rfl).trans ?_
  rw [pay4_apply]
theorem lsp3_apply (x0 : Vec Ideal S8x8000x4 .f32) (x2 : Vec Ideal S8x8000x1 .f32) (b : Fin 8) (τ : Fin 8000) :
    (k0_pay28 (F := Ideal) (k0_pay1 (F := Ideal) x2) (k0_pay2 (F := Ideal) x0)) (ix2 b τ) = lsig (x0 (ix3 b τ 3)) * x2 (ix3 b τ 0) := by
  unfold k0_pay28
  refine (maskcol_apply 3 _ _ x2 b τ 3 rfl).trans ?_
  rw [pay2_apply]
theorem lsn3_apply (x0 : Vec Ideal S8x8000x4 .f32) (x2 : Vec Ideal S8x8000x1 .f32) (b : Fin 8) (τ : Fin 8000) :
    (k0_pay29 (F := Ideal) (k0_pay1 (F := Ideal) x2) (k0_pay4 (F := Ideal) (k0_pay3 (F := Ideal) x0) (Scalar.ofBits .f32 0x00000000#32))) (ix2 b τ) = lsig (-(x0 (ix3 b τ 3))) * x2 (ix3 b τ 0) := by
  unfold k0_pay29
  refine (maskcol_apply 3 _ _ x2 b τ 3 rfl).trans ?_
  rw [pay4_apply]

/-! The four row stores. Store i holds, at (b, 0, j), the three-sum value of class i against target class j on row b over the
    row's denominator; each of its four values is the same three-sum form of that store's two masked columns and one
    target column, so each is the specification's entry once the columns are read along the frames. -/

/-- The first row store (class 0) at (b, 0, j). -/
theorem store0_apply (x0 x1 : Vec Ideal S8x8000x4 .f32) (x2 : Vec Ideal S8x8000x1 .f32) (b : Fin 8) (j : Fin 4) :
    k0_pay12 x1 (k0_pay5 (k0_pay1 x2)) (k0_pay6 (k0_pay1 x2) (k0_pay2 x0)) (k0_pay7 (k0_pay1 x2) (k0_pay3 x0) (Scalar.ofBits .f32 0x00000000#32)) (k0_pay8 (k0_pay1 x2) (k0_pay3 x0) (Scalar.ofBits .f32 0x00000000#32)) (k0_pay9 x1 (k0_pay1 x2) (k0_pay2 x0) (k0_pay3 x0) (Scalar.ofBits .f32 0x00000000#32)) (k0_pay10 x1 (k0_pay1 x2) (k0_pay2 x0) (k0_pay3 x0) (Scalar.ofBits .f32 0x00000000#32)) (k0_pay11 x1 (k0_pay1 x2) (k0_pay2 x0) (k0_pay3 x0) (Scalar.ofBits .f32 0x00000000#32)) (ix3 b (0 : Fin 1) j)
      = entryK (fun τ => x0 (ix3 b τ 0)) (fun τ => x1 (ix3 b τ j)) (fun τ => x2 (ix3 b τ 0)) := by
  unfold k0_pay12
  refine (rowstore_apply _ _ _ _ _ b j).trans ?_
  fin_cases j
  · have h := entry_of (k0_pay6 (F := Ideal) (k0_pay1 (F := Ideal) x2) (k0_pay2 (F := Ideal) x0))
        (k0_pay7 (F := Ideal) (k0_pay1 (F := Ideal) x2) (k0_pay3 (F := Ideal) x0) (Scalar.ofBits .f32 0x00000000#32))
        (shapeCast S8x8000 (extractStridedSlice S8x8000x1 ![0, 0, 0] x1 slices_S8x8000x4_o0_0_0_S8x8000x1) shapeCasts_S8x8000x1_S8x8000)
        (k0_pay5 (F := Ideal) (k0_pay1 (F := Ideal) x2)) b
        (fun τ => x0 (ix3 b τ 0)) (fun τ => x1 (ix3 b τ 0)) (fun τ => x2 (ix3 b τ 0))
        (lsp0_apply x0 x2 b) (lsn0_apply x0 x2 b) (fun τ => col_apply 0 x1 _ b τ 0 rfl) (denom_apply x2 b)
    exact h
  · have h := entry_of (k0_pay6 (F := Ideal) (k0_pay1 (F := Ideal) x2) (k0_pay2 (F := Ideal) x0))
        (k0_pay7 (F := Ideal) (k0_pay1 (F := Ideal) x2) (k0_pay3 (F := Ideal) x0) (Scalar.ofBits .f32 0x00000000#32))
        (shapeCast S8x8000 (extractStridedSlice S8x8000x1 ![0, 0, 1] x1 slices_S8x8000x4_o0_0_1_S8x8000x1) shapeCasts_S8x8000x1_S8x8000)
        (k0_pay5 (F := Ideal) (k0_pay1 (F := Ideal) x2)) b
        (fun τ => x0 (ix3 b τ 0)) (fun τ => x1 (ix3 b τ 1)) (fun τ => x2 (ix3 b τ 0))
        (lsp0_apply x0 x2 b) (lsn0_apply x0 x2 b) (fun τ => col_apply 1 x1 _ b τ 1 rfl) (denom_apply x2 b)
    exact h
  · have h := entry_of (k0_pay6 (F := Ideal) (k0_pay1 (F := Ideal) x2) (k0_pay2 (F := Ideal) x0))
        (k0_pay7 (F := Ideal) (k0_pay1 (F := Ideal) x2) (k0_pay3 (F := Ideal) x0) (Scalar.ofBits .f32 0x00000000#32))
        (shapeCast S8x8000 (extractStridedSlice S8x8000x1 ![0, 0, 2] x1 slices_S8x8000x4_o0_0_2_S8x8000x1) shapeCasts_S8x8000x1_S8x8000)
        (k0_pay5 (F := Ideal) (k0_pay1 (F := Ideal) x2)) b
        (fun τ => x0 (ix3 b τ 0)) (fun τ => x1 (ix3 b τ 2)) (fun τ => x2 (ix3 b τ 0))
        (lsp0_apply x0 x2 b) (lsn0_apply x0 x2 b) (fun τ => col_apply 2 x1 _ b τ 2 rfl) (denom_apply x2 b)
    exact h
  · have h := entry_of (k0_pay6 (F := Ideal) (k0_pay1 (F := Ideal) x2) (k0_pay2 (F := Ideal) x0))
        (k0_pay7 (F := Ideal) (k0_pay1 (F := Ideal) x2) (k0_pay3 (F := Ideal) x0) (Scalar.ofBits .f32 0x00000000#32))
        (shapeCast S8x8000 (extractStridedSlice S8x8000x1 ![0, 0, 3] x1 slices_S8x8000x4_o0_0_3_S8x8000x1) shapeCasts_S8x8000x1_S8x8000)
        (k0_pay5 (F := Ideal) (k0_pay1 (F := Ideal) x2)) b
        (fun τ => x0 (ix3 b τ 0)) (fun τ => x1 (ix3 b τ 3)) (fun τ => x2 (ix3 b τ 0))
        (lsp0_apply x0 x2 b) (lsn0_apply x0 x2 b) (fun τ => col_apply 3 x1 _ b τ 3 rfl) (denom_apply x2 b)
    exact h

/-- The second row store (class 1) at (b, 0, j). -/
theorem store1_apply (x0 x1 : Vec Ideal S8x8000x4 .f32) (x2 : Vec Ideal S8x8000x1 .f32) (b : Fin 8) (j : Fin 4) :
    k0_pay18 x1 (k0_pay5 (k0_pay1 x2)) (k0_pay13 (k0_pay1 x2) (k0_pay2 x0)) (k0_pay14 (k0_pay1 x2) (k0_pay4 (k0_pay3 x0) (Scalar.ofBits .f32 0x00000000#32))) (k0_pay15 (k0_pay1 x2) (k0_pay4 (k0_pay3 x0) (Scalar.ofBits .f32 0x00000000#32))) (k0_pay16 x1 (k0_pay1 x2) (k0_pay2 x0) (k0_pay4 (k0_pay3 x0) (Scalar.ofBits .f32 0x00000000#32))) (k0_pay17 x1) (ix3 b (0 : Fin 1) j)
      = entryK (fun τ => x0 (ix3 b τ 1)) (fun τ => x1 (ix3 b τ j)) (fun τ => x2 (ix3 b τ 0)) := by
  unfold k0_pay18
  refine (rowstore_apply _ _ _ _ _ b j).trans ?_
  fin_cases j
  · have h := entry_of (k0_pay13 (F := Ideal) (k0_pay1 (F := Ideal) x2) (k0_pay2 (F := Ideal) x0))
        (k0_pay14 (F := Ideal) (k0_pay1 (F := Ideal) x2) (k0_pay4 (F := Ideal) (k0_pay3 (F := Ideal) x0) (Scalar.ofBits .f32 0x00000000#32)))
        (shapeCast S8x8000 (extractStridedSlice S8x8000x1 ![0, 0, 0] x1 slices_S8x8000x4_o0_0_0_S8x8000x1) shapeCasts_S8x8000x1_S8x8000)
        (k0_pay5 (F := Ideal) (k0_pay1 (F := Ideal) x2)) b
        (fun τ => x0 (ix3 b τ 1)) (fun τ => x1 (ix3 b τ 0)) (fun τ => x2 (ix3 b τ 0))
        (lsp1_apply x0 x2 b) (lsn1_apply x0 x2 b) (fun τ => col_apply 0 x1 _ b τ 0 rfl) (denom_apply x2 b)
    exact h
  · have h := entry_of (k0_pay13 (F := Ideal) (k0_pay1 (F := Ideal) x2) (k0_pay2 (F := Ideal) x0))
        (k0_pay14 (F := Ideal) (k0_pay1 (F := Ideal) x2) (k0_pay4 (F := Ideal) (k0_pay3 (F := Ideal) x0) (Scalar.ofBits .f32 0x00000000#32)))
        (shapeCast S8x8000 (extractStridedSlice S8x8000x1 ![0, 0, 1] x1 slices_S8x8000x4_o0_0_1_S8x8000x1) shapeCasts_S8x8000x1_S8x8000)
        (k0_pay5 (F := Ideal) (k0_pay1 (F := Ideal) x2)) b
        (fun τ => x0 (ix3 b τ 1)) (fun τ => x1 (ix3 b τ 1)) (fun τ => x2 (ix3 b τ 0))
        (lsp1_apply x0 x2 b) (lsn1_apply x0 x2 b) (fun τ => col_apply 1 x1 _ b τ 1 rfl) (denom_apply x2 b)
    exact h
  · have h := entry_of (k0_pay13 (F := Ideal) (k0_pay1 (F := Ideal) x2) (k0_pay2 (F := Ideal) x0))
        (k0_pay14 (F := Ideal) (k0_pay1 (F := Ideal) x2) (k0_pay4 (F := Ideal) (k0_pay3 (F := Ideal) x0) (Scalar.ofBits .f32 0x00000000#32)))
        (shapeCast S8x8000 (extractStridedSlice S8x8000x1 ![0, 0, 2] x1 slices_S8x8000x4_o0_0_2_S8x8000x1) shapeCasts_S8x8000x1_S8x8000)
        (k0_pay5 (F := Ideal) (k0_pay1 (F := Ideal) x2)) b
        (fun τ => x0 (ix3 b τ 1)) (fun τ => x1 (ix3 b τ 2)) (fun τ => x2 (ix3 b τ 0))
        (lsp1_apply x0 x2 b) (lsn1_apply x0 x2 b) (fun τ => col_apply 2 x1 _ b τ 2 rfl) (denom_apply x2 b)
    exact h
  · have h := entry_of (k0_pay13 (F := Ideal) (k0_pay1 (F := Ideal) x2) (k0_pay2 (F := Ideal) x0))
        (k0_pay14 (F := Ideal) (k0_pay1 (F := Ideal) x2) (k0_pay4 (F := Ideal) (k0_pay3 (F := Ideal) x0) (Scalar.ofBits .f32 0x00000000#32)))
        (shapeCast S8x8000 (extractStridedSlice S8x8000x1 ![0, 0, 3] x1 slices_S8x8000x4_o0_0_3_S8x8000x1) shapeCasts_S8x8000x1_S8x8000)
        (k0_pay5 (F := Ideal) (k0_pay1 (F := Ideal) x2)) b
        (fun τ => x0 (ix3 b τ 1)) (fun τ => x1 (ix3 b τ 3)) (fun τ => x2 (ix3 b τ 0))
        (lsp1_apply x0 x2 b) (lsn1_apply x0 x2 b) (fun τ => col_apply 3 x1 _ b τ 3 rfl) (denom_apply x2 b)
    exact h

/-- The third row store (class 2) at (b, 0, j). -/
theorem store2_apply (x0 x1 : Vec Ideal S8x8000x4 .f32) (x2 : Vec Ideal S8x8000x1 .f32) (b : Fin 8) (j : Fin 4) :
    k0_pay27 (k0_pay5 (k0_pay1 x2)) (k0_pay20 (k0_pay1 x2) (k0_pay4 (k0_pay3 x0) (Scalar.ofBits .f32 0x00000000#32))) (k0_pay21 (k0_pay1 x2) (k0_pay4 (k0_pay3 x0) (Scalar.ofBits .f32 0x00000000#32))) (k0_pay22 x1 (k0_pay1 x2) (k0_pay2 x0) (k0_pay4 (k0_pay3 x0) (Scalar.ofBits .f32 0x00000000#32))) (k0_pay23 x1 (k0_pay1 x2) (k0_pay2 x0) (k0_pay4 (k0_pay3 x0) (Scalar.ofBits .f32 0x00000000#32))) (k0_pay24 x1 (k0_pay1 x2) (k0_pay2 x0) (k0_pay4 (k0_pay3 x0) (Scalar.ofBits .f32 0x00000000#32))) (k0_pay25 x1) (k0_pay26 x1 (k0_pay1 x2) (k0_pay2 x0)) (ix3 b (0 : Fin 1) j)
      = entryK (fun τ => x0 (ix3 b τ 2)) (fun τ => x1 (ix3 b τ j)) (fun τ => x2 (ix3 b τ 0)) := by
  unfold k0_pay27
  refine (rowstore_apply _ _ _ _ _ b j).trans ?_
  fin_cases j
  · have h := entry_of (k0_pay19 (F := Ideal) (k0_pay1 (F := Ideal) x2) (k0_pay2 (F := Ideal) x0))
        (k0_pay20 (F := Ideal) (k0_pay1 (F := Ideal) x2) (k0_pay4 (F := Ideal) (k0_pay3 (F := Ideal) x0) (Scalar.ofBits .f32 0x00000000#32)))
        (shapeCast S8x8000 (extractStridedSlice S8x8000x1 ![0, 0, 0] x1 slices_S8x8000x4_o0_0_0_S8x8000x1) shapeCasts_S8x8000x1_S8x8000)
        (k0_pay5 (F := Ideal) (k0_pay1 (F := Ideal) x2)) b
        (fun τ => x0 (ix3 b τ 2)) (fun τ => x1 (ix3 b τ 0)) (fun τ => x2 (ix3 b τ 0))
        (lsp2_apply x0 x2 b) (lsn2_apply x0 x2 b) (fun τ => col_apply 0 x1 _ b τ 0 rfl) (denom_apply x2 b)
    exact h
  · have h := entry_of (k0_pay19 (F := Ideal) (k0_pay1 (F := Ideal) x2) (k0_pay2 (F := Ideal) x0))
        (k0_pay20 (F := Ideal) (k0_pay1 (F := Ideal) x2) (k0_pay4 (F := Ideal) (k0_pay3 (F := Ideal) x0) (Scalar.ofBits .f32 0x00000000#32)))
        (shapeCast S8x8000 (extractStridedSlice S8x8000x1 ![0, 0, 1] x1 slices_S8x8000x4_o0_0_1_S8x8000x1) shapeCasts_S8x8000x1_S8x8000)
        (k0_pay5 (F := Ideal) (k0_pay1 (F := Ideal) x2)) b
        (fun τ => x0 (ix3 b τ 2)) (fun τ => x1 (ix3 b τ 1)) (fun τ => x2 (ix3 b τ 0))
        (lsp2_apply x0 x2 b) (lsn2_apply x0 x2 b) (fun τ => col_apply 1 x1 _ b τ 1 rfl) (denom_apply x2 b)
    exact h
  · have h := entry_of (k0_pay19 (F := Ideal) (k0_pay1 (F := Ideal) x2) (k0_pay2 (F := Ideal) x0))
        (k0_pay20 (F := Ideal) (k0_pay1 (F := Ideal) x2) (k0_pay4 (F := Ideal) (k0_pay3 (F := Ideal) x0) (Scalar.ofBits .f32 0x00000000#32)))
        (shapeCast S8x8000 (extractStridedSlice S8x8000x1 ![0, 0, 2] x1 slices_S8x8000x4_o0_0_2_S8x8000x1) shapeCasts_S8x8000x1_S8x8000)
        (k0_pay5 (F := Ideal) (k0_pay1 (F := Ideal) x2)) b
        (fun τ => x0 (ix3 b τ 2)) (fun τ => x1 (ix3 b τ 2)) (fun τ => x2 (ix3 b τ 0))
        (lsp2_apply x0 x2 b) (lsn2_apply x0 x2 b) (fun τ => col_apply 2 x1 _ b τ 2 rfl) (denom_apply x2 b)
    exact h
  · have h := entry_of (k0_pay19 (F := Ideal) (k0_pay1 (F := Ideal) x2) (k0_pay2 (F := Ideal) x0))
        (k0_pay20 (F := Ideal) (k0_pay1 (F := Ideal) x2) (k0_pay4 (F := Ideal) (k0_pay3 (F := Ideal) x0) (Scalar.ofBits .f32 0x00000000#32)))
        (shapeCast S8x8000 (extractStridedSlice S8x8000x1 ![0, 0, 3] x1 slices_S8x8000x4_o0_0_3_S8x8000x1) shapeCasts_S8x8000x1_S8x8000)
        (k0_pay5 (F := Ideal) (k0_pay1 (F := Ideal) x2)) b
        (fun τ => x0 (ix3 b τ 2)) (fun τ => x1 (ix3 b τ 3)) (fun τ => x2 (ix3 b τ 0))
        (lsp2_apply x0 x2 b) (lsn2_apply x0 x2 b) (fun τ => col_apply 3 x1 _ b τ 3 rfl) (denom_apply x2 b)
    exact h

/-- The fourth row store (class 3) at (b, 0, j). -/
theorem store3_apply (x0 x1 : Vec Ideal S8x8000x4 .f32) (x2 : Vec Ideal S8x8000x1 .f32) (b : Fin 8) (j : Fin 4) :
    k0_pay35 x1 (k0_pay5 (k0_pay1 x2)) (k0_pay28 (k0_pay1 x2) (k0_pay2 x0)) (k0_pay29 (k0_pay1 x2) (k0_pay4 (k0_pay3 x0) (Scalar.ofBits .f32 0x00000000#32))) (k0_pay30 (k0_pay1 x2) (k0_pay4 (k0_pay3 x0) (Scalar.ofBits .f32 0x00000000#32))) (k0_pay31 x1 (k0_pay1 x2) (k0_pay2 x0) (k0_pay4 (k0_pay3 x0) (Scalar.ofBits .f32 0x00000000#32))) (k0_pay33 x1 (k0_pay1 x2) (k0_pay2 x0)) (k0_pay34 x1 (k0_pay1 x2) (k0_pay4 (k0_pay3 x0) (Scalar.ofBits .f32 0x00000000#32))) (ix3 b (0 : Fin 1) j)
      = entryK (fun τ => x0 (ix3 b τ 3)) (fun τ => x1 (ix3 b τ j)) (fun τ => x2 (ix3 b τ 0)) := by
  unfold k0_pay35
  refine (rowstore_apply _ _ _ _ _ b j).trans ?_
  fin_cases j
  · have h := entry_of (k0_pay28 (F := Ideal) (k0_pay1 (F := Ideal) x2) (k0_pay2 (F := Ideal) x0))
        (k0_pay29 (F := Ideal) (k0_pay1 (F := Ideal) x2) (k0_pay4 (F := Ideal) (k0_pay3 (F := Ideal) x0) (Scalar.ofBits .f32 0x00000000#32)))
        (shapeCast S8x8000 (extractStridedSlice S8x8000x1 ![0, 0, 0] x1 slices_S8x8000x4_o0_0_0_S8x8000x1) shapeCasts_S8x8000x1_S8x8000)
        (k0_pay5 (F := Ideal) (k0_pay1 (F := Ideal) x2)) b
        (fun τ => x0 (ix3 b τ 3)) (fun τ => x1 (ix3 b τ 0)) (fun τ => x2 (ix3 b τ 0))
        (lsp3_apply x0 x2 b) (lsn3_apply x0 x2 b) (fun τ => col_apply 0 x1 _ b τ 0 rfl) (denom_apply x2 b)
    exact h
  · have h := entry_of (k0_pay28 (F := Ideal) (k0_pay1 (F := Ideal) x2) (k0_pay2 (F := Ideal) x0))
        (k0_pay29 (F := Ideal) (k0_pay1 (F := Ideal) x2) (k0_pay4 (F := Ideal) (k0_pay3 (F := Ideal) x0) (Scalar.ofBits .f32 0x00000000#32)))
        (shapeCast S8x8000 (extractStridedSlice S8x8000x1 ![0, 0, 1] x1 slices_S8x8000x4_o0_0_1_S8x8000x1) shapeCasts_S8x8000x1_S8x8000)
        (k0_pay5 (F := Ideal) (k0_pay1 (F := Ideal) x2)) b
        (fun τ => x0 (ix3 b τ 3)) (fun τ => x1 (ix3 b τ 1)) (fun τ => x2 (ix3 b τ 0))
        (lsp3_apply x0 x2 b) (lsn3_apply x0 x2 b) (fun τ => col_apply 1 x1 _ b τ 1 rfl) (denom_apply x2 b)
    exact h
  · have h := entry_of (k0_pay28 (F := Ideal) (k0_pay1 (F := Ideal) x2) (k0_pay2 (F := Ideal) x0))
        (k0_pay29 (F := Ideal) (k0_pay1 (F := Ideal) x2) (k0_pay4 (F := Ideal) (k0_pay3 (F := Ideal) x0) (Scalar.ofBits .f32 0x00000000#32)))
        (shapeCast S8x8000 (extractStridedSlice S8x8000x1 ![0, 0, 2] x1 slices_S8x8000x4_o0_0_2_S8x8000x1) shapeCasts_S8x8000x1_S8x8000)
        (k0_pay5 (F := Ideal) (k0_pay1 (F := Ideal) x2)) b
        (fun τ => x0 (ix3 b τ 3)) (fun τ => x1 (ix3 b τ 2)) (fun τ => x2 (ix3 b τ 0))
        (lsp3_apply x0 x2 b) (lsn3_apply x0 x2 b) (fun τ => col_apply 2 x1 _ b τ 2 rfl) (denom_apply x2 b)
    exact h
  · have h := entry_of (k0_pay28 (F := Ideal) (k0_pay1 (F := Ideal) x2) (k0_pay2 (F := Ideal) x0))
        (k0_pay29 (F := Ideal) (k0_pay1 (F := Ideal) x2) (k0_pay4 (F := Ideal) (k0_pay3 (F := Ideal) x0) (Scalar.ofBits .f32 0x00000000#32)))
        (shapeCast S8x8000 (extractStridedSlice S8x8000x1 ![0, 0, 3] x1 slices_S8x8000x4_o0_0_3_S8x8000x1) shapeCasts_S8x8000x1_S8x8000)
        (k0_pay5 (F := Ideal) (k0_pay1 (F := Ideal) x2)) b
        (fun τ => x0 (ix3 b τ 3)) (fun τ => x1 (ix3 b τ 3)) (fun τ => x2 (ix3 b τ 0))
        (lsp3_apply x0 x2 b) (lsn3_apply x0 x2 b) (fun τ => col_apply 3 x1 _ b τ 3 rfl) (denom_apply x2 b)
    exact h

/-- Entry (b, i, j) of the block the body leaves, from the step's logits block x0, targets block x1 and mask block x2. -/
theorem block_apply (x0 x1 : Vec Ideal S8x8000x4 .f32) (x2 : Vec Ideal S8x8000x1 .f32) (b : Fin 8) (i j : Fin 4) :
    out0_3 (F := Ideal) x0 x1 x2 (ix3 b i j)
      = entryK (fun τ => x0 (ix3 b τ i)) (fun τ => x1 (ix3 b τ j)) (fun τ => x2 (ix3 b τ 0)) := by
  have hz : (![0, 0, 0] : Fin 3 → Nat) = fun _ => 0 := by funext a; fin_cases a <;> rfl
  unfold out0_3
  simp only [View.ld_unit_zero (S := S8x8000x4) hz, View.ld_unit_zero (S := S8x8000x1) hz]
  refine (canon_rows _ _ _ _ b i j).trans ?_
  fin_cases i
  · have h := store0_apply x0 x1 x2 b j
    exact h
  · have h := store1_apply x0 x1 x2 b j
    exact h
  · have h := store2_apply x0 x1 x2 b j
    exact h
  · have h := store3_apply x0 x1 x2 b j
    exact h

end Cert.Pit

end
-- ==== Proof.KernelValue.lean ====
/-
  The kernel program's value: what its cost array and its result hold after the run, as functions of the arguments.

  Grid step t of the kernel works on batch rows 8t … 8t+7: it reads those rows of the logits, the targets and the
  (broadcast) mask and writes rows 8t … 8t+7 of the [64, 4, 4] cost matrix; the eight steps tile the matrix, so after
  the region entry (b, i, j) of the matrix is the kernel's three-sum form of the masked cost on batch row b.  The host
  operations after the region are the permutation search applied to that matrix.
-/
import proofs.«164727_j77919296684577_1_alg».proof.Proof.Gen.KernelIdeal.Frame
import proofs.«164727_j77919296684577_1_alg».proof.Proof.KernelBlock
import proofs.«164727_j77919296684577_1_alg».proof.Proof.PitTail
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Pit.KernelValue

open Cert.KernelIdeal Cert.KernelIdeal.Gen Cert.Pit

variable (m : (ℓ : Loc nD τ sig) → Buf (Elt Ideal) ℓ) (ρ : Dev nD → PrngReg)

/-- The cost matrix as the kernel forms it, from the logits, the targets and the mask broadcast to [64, 8000, 1]. -/
def costArr (A0 A1 : S64x8000x4.Idx → EReal) (M : S64x8000x1.Idx → EReal) : S64x4x4.Idx → EReal :=
  fun y => entryK (fun τ => A0 (ix3 (y 0) τ (y 1))) (fun τ => A1 (ix3 (y 0) τ (y 2))) (fun τ => M (ix3 (y 0) τ 0))

/-- Every window's block index at step t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem t_lt (t : Fin cfg0.N) : t.val < 8 := by have := t.isLt; have h : cfg0.N = 8 := N_0; omega

/-- The logits block of step t is rows 8t … 8t+7 of the logits. -/
theorem iblk0_apply (c : Dev nD) (t : Fin cfg0.N) (x : S8x8000x4.Idx) (k : S64x8000x4.Idx)
    (hk0 : (k 0).val = 8 * t.val + (x 0).val) (hk1 : (k 1).val = (x 1).val) (hk2 : (k 2).val = (x 2).val) :
    (iblk m c 0 t : Vec Ideal S8x8000x4 .f32) x = (V m c main_arg0 : S64x8000x4.Idx → EReal) k := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t 0 * 8 + 1 * (x 0).val = (k 0).val; rw [e0, hk0]; omega
  | ⟨1, _⟩ => show win0_0.index t 1 * 8000 + 1 * (x 1).val = (k 1).val; rw [e1, hk1]; omega
  | ⟨2, _⟩ => show win0_0.index t 2 * 4 + 1 * (x 2).val = (k 2).val; rw [e2, hk2]; omega

/-- The targets block of step t is rows 8t … 8t+7 of the targets. -/
theorem iblk1_apply (c : Dev nD) (t : Fin cfg0.N) (x : S8x8000x4.Idx) (k : S64x8000x4.Idx)
    (hk0 : (k 0).val = 8 * t.val + (x 0).val) (hk1 : (k 1).val = (x 1).val) (hk2 : (k 2).val = (x 2).val) :
    (iblk m c 1 t : Vec Ideal S8x8000x4 .f32) x = (V m c main_arg1 : S64x8000x4.Idx → EReal) k := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t 0 * 8 + 1 * (x 0).val = (k 0).val; rw [e0, hk0]; omega
  | ⟨1, _⟩ => show win0_1.index t 1 * 8000 + 1 * (x 1).val = (k 1).val; rw [e1, hk1]; omega
  | ⟨2, _⟩ => show win0_1.index t 2 * 4 + 1 * (x 2).val = (k 2).val; rw [e2, hk2]; omega

/-- The mask block of step t is rows 8t … 8t+7 of the broadcast mask. -/
theorem iblk2_apply (c : Dev nD) (t : Fin cfg0.N) (x : S8x8000x1.Idx) (k : S64x8000x1.Idx)
    (hk0 : (k 0).val = 8 * t.val + (x 0).val) (hk1 : (k 1).val = (x 1).val) (hk2 : (k 2).val = (x 2).val) :
    (iblk m c 2 t : Vec Ideal S8x8000x1 .f32) x = (V m c main_v0 : S64x8000x1.Idx → EReal) k := by
  obtain ⟨-, -, -, -, -, -, e0, e1, e2, -⟩ := idx_facts t
  unfold iblk
  rw [View.read_apply]
  show V m c main_v0 _ = V m c main_v0 _
  congr 1
  funext a
  apply Fin.ext
  match a with
  | ⟨0, _⟩ => show win0_2.index t 0 * 8 + 1 * (x 0).val = (k 0).val; rw [e0, hk0]; omega
  | ⟨1, _⟩ => show win0_2.index t 1 * 8000 + 1 * (x 1).val = (k 1).val; rw [e1, hk1]; omega
  | ⟨2, _⟩ => show win0_2.index t 2 * 1 + 1 * (x 2).val = (k 2).val; rw [e2, hk2]; omega

/-- Row b of step t's block is row 8t + b of the matrix. -/
def rowOf (t : Fin cfg0.N) (b : Fin 8) : Fin 64 := ⟨8 * t.val + b.val, by have := t_lt t; have := b.isLt; omega⟩

/-- What step t leaves in its output block is rows 8t … 8t+7 of the kernel's cost matrix of the arrays the region finds. -/
theorem out_block_apply (c : Dev nD) (t : Fin cfg0.N) (b : Fin 8) (i j : Fin 4) :
    out0_3 (F := Ideal) (iblk m c 0 t) (iblk m c 1 t) (iblk m c 2 t) (ix3 b i j)
      = costArr (V m c main_arg0) (V m c main_arg1) (V m c main_v0) (ix3 (rowOf t b) i j) := by
  rw [block_apply]
  unfold costArr
  congr 1
  · funext τ; exact iblk0_apply m c t (ix3 b τ i) (ix3 (rowOf t b) τ i) rfl rfl rfl
  · funext τ; exact iblk1_apply m c t (ix3 b τ j) (ix3 (rowOf t b) τ j) rfl rfl rfl
  · funext τ; exact iblk2_apply m c t (ix3 b τ 0) (ix3 (rowOf t b) τ 0) rfl rfl rfl

/-- What step t writes back is block t of the kernel's cost matrix of the arrays the region finds. -/
theorem flushed_eq (c : Dev nD) (t : Fin cfg0.N) :
    (dats m 0 c).flushed 3 t
      = ((cfg0.win 3).blk t).view.read (Elt Ideal) (costArr (V m c main_arg0) (V m c main_arg1) (V m c main_v0)) := by
  show (cfg0.win 3).cut (grid0.coords t) ((dats m 0 c).after 3 t) = _
  rw [after0_3]
  obtain ⟨-, -, -, -, -, -, -, -, -, e0, e1, e2⟩ := idx_facts t
  funext y
  obtain ⟨b, i, j, rfl⟩ : ∃ (b : Fin 8) (i j : Fin 4), y = ix3 b i j := ⟨y 0, y 1, y 2, eq_ix3 y⟩
  rw [View.read_apply]
  show out0_3 (F := Ideal) (iblk m c 0 t) (iblk m c 1 t) (iblk m c 2 t) (ix3 b i j)
      = costArr (V m c main_arg0) (V m c main_arg1) (V m c main_v0) (((cfg0.win 3).blk t).view.emb (ix3 b i j))
  rw [out_block_apply]
  congr 1
  funext a
  apply Fin.ext
  match a with
  | ⟨0, _⟩ => show 8 * t.val + b.val = win0_3.index t 0 * 8 + 1 * b.val; rw [e0]; omega
  | ⟨1, _⟩ => show i.val = win0_3.index t 1 * 4 + 1 * i.val; rw [e1]; omega
  | ⟨2, _⟩ => show j.val = win0_3.index t 2 * 4 + 1 * j.val; rw [e2]; omega

/-- An index of the matrix is in step t's block iff each coordinate is in the block's range on its axis. -/
theorem mem_blk (t : Fin cfg0.N) (i : S64x4x4.Idx) :
    i ∈ ((cfg0.win 3).blk t).view.set ↔ ∀ a : Fin 3, win0_3.index t a * S8x4x4.size a ≤ (i a).val ∧ (i a).val < win0_3.index t a * S8x4x4.size a + S8x4x4.size a := by
  show i ∈ ((View.whole main_v1).slice (win0_3.rect t)).set ↔ _
  rw [View.set_slice_whole, Rect.mem_set_unit]
  exact Iff.rfl

/-- The eight blocks tile the matrix: row r lies in the block of step r / 8. -/
theorem cover (i : S64x4x4.Idx) : ∃ t : Fin cfg0.N, (cfg0.win 3).flush t = true ∧ i ∈ ((cfg0.win 3).blk t).view.set := by
  have h0 : (i 0).val < 64 := (i 0).isLt
  have h1 : (i 1).val < 4 := (i 1).isLt
  have h2 : (i 2).val < 4 := (i 2).isLt
  have hN : cfg0.N = 8 := N_0
  let t : Fin cfg0.N := ⟨(i 0).val / 8, by omega⟩
  obtain ⟨-, -, -, -, -, -, -, -, -, e0, e1, e2⟩ := idx_facts t
  refine ⟨t, flush0_3 t, ?_⟩
  rw [mem_blk]
  intro a
  match a with
  | ⟨0, _⟩ => show win0_3.index t 0 * 8 ≤ (i 0).val ∧ (i 0).val < win0_3.index t 0 * 8 + 8; rw [e0]; show (i 0).val / 8 * 8 ≤ (i 0).val ∧ (i 0).val < (i 0).val / 8 * 8 + 8; omega
  | ⟨1, _⟩ => show win0_3.index t 1 * 4 ≤ (i 1).val ∧ (i 1).val < win0_3.index t 1 * 4 + 4; rw [e1]; omega
  | ⟨2, _⟩ => show win0_3.index t 2 * 4 ≤ (i 2).val ∧ (i 2).val < win0_3.index t 2 * 4 + 4; rw [e2]; omega

/-- The cost array after the region: the kernel's cost matrix of the arrays the region finds. -/
theorem final (c : Dev nD) :
    (dats m 0 c).arrAt 3 cfg0.N = costArr (V m c main_arg0) (V m c main_arg1) (V m c main_v0) :=
  (dats m 0 c).arrAt_eq_of_cover 3 (costArr (V m c main_arg0) (V m c main_arg1) (V m c main_v0))
    (fun t _ => flushed_eq m c t) cover

/-- The mask array the region finds is the mask argument with a unit axis appended. -/
theorem V_v0 (c : Dev nD) :
    (V m c main_v0 : S64x8000x1.Idx → EReal)
      = broadcastInDim S64x8000x1 ![0, 1] Facts₀.bcast_S64x8000_S64x8000x1_0_1 (m ((c : Thread nD τ).loc main_arg2)) := by
  show StableHlo.after hostOps0 (fun b => m (c, b)) (Proc.devRef .tc main_v0) = _
  after_results

/-- The permutation table the region leaves untouched. -/
theorem V_c (c : Dev nD) : (V m c main_c : S24x4.Idx → BitVec 32) = permTable := by
  show StableHlo.after hostOps0 (fun b => m (c, b)) (Proc.devRef .tc main_c) = _
  after_results
  rfl

/-- The broadcast mask at (b, τ, 0) is the mask at (b, τ). -/
theorem mask_apply (a2 : S64x8000.Idx → EReal) (b : Fin 64) (τ : Fin 8000) :
    broadcastInDim S64x8000x1 ![0, 1] Facts₀.bcast_S64x8000_S64x8000x1_0_1 a2 (ix3 b τ 0) = a2 (ix2 b τ) :=
  broadcastInDim_apply _ _ a2 _ _ fun a => by
    match a with
    | ⟨0, _⟩ => rfl
    | ⟨1, _⟩ => rfl

/-- The host operations after the region are the permutation search of whatever the table and the cost array hold. -/
theorem tail_of (W : Valuation τ sig (Elt Ideal)) :
    StableHlo.after hostOps1 W (Proc.devRef .tc main_v24)
      = tail (W (Proc.devRef .tc main_c)) (W (Proc.devRef .tc main_v1)) := by
  after_results
  rfl

/-- The program's result after the run: the permutation search of the kernel's cost matrix. -/
theorem tail_eq (c : Dev nD) :
    Pipeline.afterTail₀ cfgs (dats m) 0 (V0 m) [hostOps1] c main_v24
      = tail permTable (costArr (V m c main_arg0) (V m c main_arg1) (V m c main_v0)) := by
  unfold Pipeline.afterTail₀
  show StableHlo.after hostOps1 _ (Proc.devRef .tc main_v24) = _
  rw [tail_of]
  refine congrArg₂ tail ?_ ?_
  · exact (Pipeline.withArrays_of_ne spec0 c _ _ main_c (by exact (by decide : ∀ w, Pipeline.arrRef spec0 w ≠ main_c))).trans (V_c m c)
  · exact (Pipeline.withArrays_arr spec0 launch0.win.arr_inj c _ _ 3).trans (final m c)

/-- The kernel's cost matrix of the three ARGUMENTS: entry (b, i, j) is the three-sum form over row b of the logits,
    the targets and the mask. -/
def costK (a0 a1 : S64x8000x4.Idx → EReal) (a2 : S64x8000.Idx → EReal) : S64x4x4.Idx → EReal :=
  fun y => entryK (fun τ => a0 (ix3 (y 0) τ (y 1))) (fun τ => a1 (ix3 (y 0) τ (y 2))) (fun τ => a2 (ix2 (y 0) τ))

theorem costArr_eq (c : Dev nD) :
    costArr (V m c main_arg0) (V m c main_arg1) (V m c main_v0)
      = costK (m ((c : Thread nD τ).loc main_arg0)) (m ((c : Thread nD τ).loc main_arg1)) (m ((c : Thread nD τ).loc main_arg2)) := by
  rw [V_main_arg0, V_main_arg1, V_v0]
  funext y
  unfold costArr costK
  congr 1
  funext τ
  exact mask_apply _ (y 0) τ

/-- The run, read: the result is the permutation search of the kernel's cost matrix of the arguments, which end unchanged. -/
theorem run : θ_run defs (onTc (τ := τ) (main (F := Ideal))) ⟨m, fun _ => 0, ρ⟩ fun r => ∀ c : Dev nD,
      r.2.mem ((c.tc : Thread nD τ).loc main_v24)
          = tail permTable (costK (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v24 (Pipeline.mem_restRefs_of main_v24 (by decide) (by decide))).trans (tail_eq m c)).trans
        (congrArg (tail permTable) (costArr_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Pit.KernelValue

end
-- ==== Proof.lean ====
/-
  The certificate of the permutation-invariant training loss: a Pallas kernel that streams eight batch rows per grid
  step and accumulates a [64, 4, 4] matrix of masked binary-cross-entropy costs, followed by a search over the 24
  permutations of the four classes, against the jnp reference.

  Both programs end with the same permutation search, so the claim reduces to their cost matrices.  Entry (b, i, j) is
  the masked cost of logit class i against target class j summed over the 8000 frames of batch row b and divided by
  the clipped number of valid frames.  The reference forms the per-frame cost
      -( (3/2 · t) · ls(x) + (1 - t) · ls(-x) ) · m          (ls the log-sigmoid)
  and sums it; the kernel accumulates three sums, Σ ls(x)·m·t, Σ ls(-x)·m and Σ ls(-x)·m·t, and combines them as
  -((3/2 · S1 + S2) - S3).  On finite inputs every term is a real number and the two agree by distributivity, which is
  where the precondition is used (on the extended reals distributivity fails at the infinities).

  The frames of the two kernel programs are the generated ones; the reference's frame is its run with the result
  dropped; nothing was rewritten by the idealization, so the preservation claim is trivial.
-/
import proofs.«164727_j77919296684577_1_alg».proof.Defs
import proofs.«164727_j77919296684577_1_alg».proof.Proof.Gen.Kernel
import proofs.«164727_j77919296684577_1_alg».proof.Proof.Gen.Kernel.Skeleton
import proofs.«164727_j77919296684577_1_alg».proof.Proof.Gen.Kernel.Launch
import proofs.«164727_j77919296684577_1_alg».proof.Proof.Gen.Kernel.Points
import proofs.«164727_j77919296684577_1_alg».proof.Proof.Gen.Kernel.Frame
import proofs.«164727_j77919296684577_1_alg».proof.Proof.Gen.KernelIdeal
import proofs.«164727_j77919296684577_1_alg».proof.Proof.Gen.KernelIdeal.Skeleton
import proofs.«164727_j77919296684577_1_alg».proof.Proof.Gen.KernelIdeal.Launch
import proofs.«164727_j77919296684577_1_alg».proof.Proof.Gen.KernelIdeal.Points
import proofs.«164727_j77919296684577_1_alg».proof.Proof.Gen.KernelIdeal.Frame
import proofs.«164727_j77919296684577_1_alg».proof.Proof.Gen.ReferenceIdeal
import proofs.«164727_j77919296684577_1_alg».proof.Proof.Gen.Pre_finite_inputs
import proofs.«164727_j77919296684577_1_alg».proof.Proof.PitSpec
import proofs.«164727_j77919296684577_1_alg».proof.Proof.Finite
import proofs.«164727_j77919296684577_1_alg».proof.Proof.RefCost
import proofs.«164727_j77919296684577_1_alg».proof.Proof.RefRun
import proofs.«164727_j77919296684577_1_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx Cert.Pit

/-- On finite arguments the kernel's cost matrix is the reference's: entry by entry the three-sum form is the one-sum form. -/
theorem cost_eq (a0 a1 : FVec Ideal Cert.KernelIdeal.S64x8000x4 .f32) (a2 : FVec Ideal Cert.KernelIdeal.S64x8000 .f32)
    (h0 : ∀ i, ∃ r : ℝ, a0 i = (r : EReal)) (h1 : ∀ i, ∃ r : ℝ, a1 i = (r : EReal)) (h2 : ∀ i, ∃ r : ℝ, a2 i = (r : EReal)) :
    Cert.Pit.KernelValue.costK a0 a1 a2 = refCost a0 a1 a2 := by
  funext y
  obtain ⟨b, i, j, rfl⟩ : ∃ (b : Fin 64) (i j : Fin 4), y = ix3 b i j := ⟨y 0, y 1, y 2, eq_ix3 y⟩
  rw [refCost_apply]
  exact entry_eq _ _ _ (fun τ => h0 _) (fun τ => h1 _) (fun τ => h2 _)

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Pit.RefRun.run m ρ)

/-- Both runs end with the permutation search of one cost matrix: the kernel's, which on the finite arguments the
    precondition grants is the reference's. -/
theorem algebraic : Cert.algebraic_KernelIdeal_ReferenceIdeal := by
  intro m ρ m' ρ' hpre hagree
  refine ⟨_, Cert.Pit.KernelValue.run m ρ, ?_⟩
  refine (θ_run Cert.ReferenceIdeal.defs _ _).mono (fun _ h c => ⟨(h c).1.trans ?_, (h c).2⟩)
    (Cert.Pit.RefRun.run m' ρ')
  rw [(hagree c).1, (hagree c).2.1, (hagree c).2.2]
  obtain ⟨f0, f1, f2⟩ := finite_of_pre _ _ _ (hpre c)
  exact congrArg (tail permTable) (cost_eq _ _ _ f0 f1 f2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
